-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x2048 : Shape := ⟨3, ![4, 2048, 2048]⟩
abbrev S2048x4096 : Shape := ⟨2, ![2048, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4x2048x2048 .f32) (main_arg2 : FVec F S2048x4096 .f32) (main_arg3 : FVec F S4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x4096 : Shape := ⟨3, ![4, 2048, 4096]⟩
abbrev S4x2048x2048 : Shape := ⟨3, ![4, 2048, 2048]⟩
abbrev S2048x4096 : Shape := ⟨2, ![2048, 4096]⟩
abbrev S4096 : Shape := ⟨1, ![4096]⟩
abbrev S8192x2048 : Shape := ⟨2, ![8192, 2048]⟩
abbrev S8192x4096 : Shape := ⟨2, ![8192, 4096]⟩
abbrev S8192x1 : Shape := ⟨2, ![8192, 1]⟩
abbrev S256x2048 : Shape := ⟨2, ![256, 2048]⟩
abbrev S256x4096 : Shape := ⟨2, ![256, 4096]⟩
abbrev S256x1 : Shape := ⟨2, ![256, 1]⟩
abbrev S1x4096 : Shape := ⟨2, ![1, 4096]⟩
abbrev S256 : Shape := ⟨1, ![256]⟩
abbrev S4x2048x1 : Shape := ⟨3, ![4, 2048, 1]⟩
abbrev S4x1x2048 : Shape := ⟨3, ![4, 1, 2048]⟩
abbrev S1x1 : Shape := ⟨2, ![1, 1]⟩
abbrev S1x512x4096 : Shape := ⟨3, ![1, 512, 4096]⟩
abbrev S1x512x1 : Shape := ⟨3, ![1, 512, 1]⟩
abbrev S1x1x512 : Shape := ⟨3, ![1, 1, 512]⟩
abbrev S512x4096 : Shape := ⟨2, ![512, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩
abbrev S_ : Shape := ⟨0, ![]⟩

abbrev nBuf : Space → Nat
  | .hbm => 23
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x2048, .f32⟩
  | .hbm, ⟨7, _⟩ => ⟨S8192x4096, .f32⟩
  | .hbm, ⟨8, _⟩ => ⟨S2048x4096, .bf16⟩
  | .hbm, ⟨9, _⟩ => ⟨S8192x4096, .bf16⟩
  | .hbm, ⟨10, _⟩ => ⟨S8192x1, .f32⟩
  | .hbm, ⟨11, _⟩ => ⟨S8192x4096, .bf16⟩
  | .hbm, ⟨12, _⟩ => ⟨S8192x1, .f32⟩
  | .hbm, ⟨13, _⟩ => ⟨S4x2048x4096, .bf16⟩
  | .hbm, ⟨14, _⟩ => ⟨S4x2048x1, .f32⟩
  | .hbm, ⟨15, _⟩ => ⟨S4x2048x4096, .bf16⟩
  | .hbm, ⟨16, _⟩ => ⟨S4x2048x1, .f32⟩
  | .hbm, ⟨17, _⟩ => ⟨S4x1x2048, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S4096, .f32⟩
  | .local _ .vmem, ⟨4, _⟩ => ⟨S4096, .f32⟩
  | .local _ .vmem, ⟨5, _⟩ => ⟨S256x4096, .bf16⟩
  | .local _ .vmem, ⟨6, _⟩ => ⟨S256x4096, .bf16⟩
  | .local _ .vmem, ⟨7, _⟩ => ⟨S256x1, .f32⟩
  | .local _ .vmem, ⟨8, _⟩ => ⟨S256x1, .f32⟩
  | .local _ .vmem, ⟨9, _⟩ => ⟨S256x4096, .f32⟩
  | .local _ .vmem, ⟨10, _⟩ => ⟨S256x4096, .f32⟩
  | .local _ .vmem, ⟨11, _⟩ => ⟨S4096, .f32⟩
  | .local _ .vmem, ⟨12, _⟩ => ⟨S256x4096, .bf16⟩
  | .local _ .vmem, ⟨13, _⟩ => ⟨S256x4096, .bf16⟩
  | .local _ .vmem, ⟨14, _⟩ => ⟨S256x1, .f32⟩
  | .local _ .vmem, ⟨15, _⟩ => ⟨S256x1, .f32⟩
  | .local _ .vmem, ⟨16, _⟩ => ⟨S1x512x4096, .bf16⟩
  | .local _ .vmem, ⟨17, _⟩ => ⟨S1x512x4096, .bf16⟩
  | .local _ .vmem, ⟨18, _⟩ => ⟨S1x512x1, .f32⟩
  | .local _ .vmem, ⟨19, _⟩ => ⟨S1x512x1, .f32⟩
  | .local _ .vmem, ⟨20, _⟩ => ⟨S1x512x4096, .bf16⟩
  | .local _ .vmem, ⟨21, _⟩ => ⟨S1x512x4096, .bf16⟩
  | .local _ .vmem, ⟨22, _⟩ => ⟨S1x1x512, .f32⟩
  | .local _ .vmem, ⟨23, _⟩ => ⟨S1x1x512, .f32⟩
  | .local _ .vmem, ⟨24, _⟩ => ⟨S1x1, .f32⟩
  | .local _ .vmem, ⟨25, _⟩ => ⟨S1x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 4, 4], ![false, false, false]⟩

def k2_cond2 (i : grid2.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v7 : BitVec 1 := Scalar.andi v5 v6
  let arg2 : BitVec 32 := BitVec.ofNat 32 (i 2).val
  let c3_i32_3 : BitVec 32 := 3#32
  let v8 : BitVec 1 := Scalar.cmpi .eq arg2 c3_i32_3
  let v9 : BitVec 1 := Scalar.andi v7 v8
  let v34 : BitVec 32 := Scalar.extui v9
  let c0_i32_22 : BitVec 32 := 0#32
  let v35 : BitVec 1 := Scalar.cmpi .ne v34 c0_i32_22
  v35

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

class Facts₀ : Prop where
  shapeCasts_S4x2048x2048_S8192x2048 : S4x2048x2048.ShapeCasts S8192x2048
  shapeCasts_S4x2048x4096_S8192x4096 : S4x2048x4096.ShapeCasts S8192x4096
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S256x4096_S256x4096 : S256x4096.ShapeCasts S256x4096
  shapeCasts_S8192x4096_S4x2048x4096 : S8192x4096.ShapeCasts S4x2048x4096
  shapeCasts_S8192x1_S4x2048x1 : S8192x1.ShapeCasts S4x2048x1
  transposes_S4x2048x1_S4x1x2048_0_2_1 : S4x2048x1.Transposes [0, 2, 1] S4x1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x512 : S512x1.Broadcasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S256x2048_S2048x4096_S256x4096_1_0_0_1_n_n_wf : DotDims.WF S256x2048 S2048x4096 S256x4096 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .bf16 = 32 ∨ (Rect.block (s := S8192x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S4096.size a
  hwx1_1 : ∀ i : grid1.Coords, EltTy.bits .f32 = 32 ∨ (Rect.block (s := S4096) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .bf16 = 32 ∨ (Rect.block (s := S8192x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S8192x1.size a
  hwx1_3 : ∀ i : grid1.Coords, EltTy.bits .f32 = 32 ∨ (Rect.block (s := S8192x1) S256x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S4x2048x4096.size a
  hwx2_0 : ∀ i : grid2.Coords, EltTy.bits .bf16 = 32 ∨ (Rect.block (s := S4x2048x4096) S1x512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1.size a ≤ S4x2048x1.size a
  hwx2_1 : ∀ i : grid2.Coords, EltTy.bits .f32 = 32 ∨ (Rect.block (s := S4x2048x1) S1x512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x4096.size a ≤ S4x2048x4096.size a
  hwx2_2 : ∀ i : grid2.Coords, EltTy.bits .bf16 = 32 ∨ (Rect.block (s := S4x2048x4096) S1x512x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S4x1x2048.size a
  hwx2_3 : ∀ i : grid2.Coords, EltTy.bits .f32 = 32 ∨ (Rect.block (s := S4x1x2048) S1x1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S256x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S256x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048x2048 : Shape := ⟨3, ![4, 2048, 2048]⟩
abbrev S2048x4096 : Shape := ⟨2, ![2048, 4096]⟩
abbrev S4096 : Shape := ⟨1, ![4096]⟩
abbrev S1x1x4096 : Shape := ⟨3, ![1, 1, 4096]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x4096, .f32⟩
  | .hbm, ⟨38, _⟩ => ⟨S4x2048x4096, .f32⟩
  | .hbm, ⟨39, _⟩ => ⟨S1x1x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048x1, .f32⟩
  | .hbm, ⟨63, _⟩ => ⟨S4x2048x1, .f32⟩
  | .hbm, ⟨64, _⟩ => ⟨S4x2048x4096, .f32⟩
  | .hbm, ⟨65, _⟩ => ⟨S4x2048x4096, .f32⟩
  | .hbm, ⟨66, _⟩ => ⟨S4x2048x2048, .f32⟩
  | .hbm, ⟨67, _⟩ => ⟨S4x2048x2048, .f32⟩
  | .hbm, ⟨68, _⟩ => ⟨S4x2048x2048, .f32⟩
  | .hbm, ⟨69, _⟩ => ⟨S4x1x2048, .f32⟩
  | .hbm, ⟨70, _⟩ => ⟨S4x2048x2048, .f32⟩
  | .hbm, ⟨71, _⟩ => ⟨S4x2048x2048, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4x2048x1_S4x2048x2048_0_1_2 : S4x2048x1.BroadcastsInDim S4x2048x2048 (![0, 1, 2] : Fin 3 → Fin S4x2048x2048.rank)
  transposes_S4x2048x1_S4x1x2048_0_2_1 : S4x2048x1.Transposes [0, 2, 1] S4x1x2048
  bcast_S4x1x2048_S4x2048x2048_0_1_2 : S4x1x2048.BroadcastsInDim S4x2048x2048 (![0, 1, 2] : Fin 3 → Fin S4x2048x2048.rank)
  reducesTo_S4x2048x2048_S_d0_1_2 : S4x2048x2048.ReducesTo [0, 1, 2] S_
  dot_S4x2048x2048_S2048x4096_S4x2048x4096_2_0_01_1_n_n_wf : DotDims.WF S4x2048x2048 S2048x4096 S4x2048x4096 [2] [0] [0, 1] [1] [] []
  dot_S4x2048x4096_S4x2048x4096_S4x2048x2048_2_2_1_1_0_0_wf : DotDims.WF S4x2048x4096 S4x2048x4096 S4x2048x2048 [2] [2] [1] [1] [0] [0]

variable [Facts₀]

def dot_S4x2048x2048_S2048x4096_S4x2048x4096_2_0_01_1_n_n : DotDims S4x2048x2048 S2048x4096 S4x2048x4096 where
  lhsContracting := [2]
  rhsContracting := [0]
  lhsNonContracting := [0, 1]
  rhsNonContracting := [1]
  lhsBatch := []
  rhsBatch := []
  wf := dot_S4x2048x2048_S2048x4096_S4x2048x4096_2_0_01_1_n_n_wf
def dot_S4x2048x4096_S4x2048x4096_S4x2048x2048_2_2_1_1_0_0 : DotDims S4x2048x4096 S4x2048x4096 S4x2048x2048 where
  lhsContracting := [2]
  rhsContracting := [2]
  lhsNonContracting := [1]
  rhsNonContracting := [1]
  lhsBatch := [0]
  rhsBatch := [0]
  wf := dot_S4x2048x4096_S4x2048x4096_S4x2048x2048_2_2_1_1_0_0_wf

class Facts : Prop extends Facts₀ where

variable [Facts]
-- ==== Proof.Kernel.StudentRegion.lean ====
/-
  The student region (the first pallas_call): projection, RMS normalisation and per-row quantisation of a block of
  256 student rows, at any float instance. Stated at a parameter V, the contents of the core's buffers when the
  region is entered. At grid point t the body reads the t-th block of 256 rows of the reshaped student array, the
  whole projection matrix, the bias and the gain, and writes the t-th block of 256 quantised rows and the 256 row
  scales; each output buffer after the body is one store covering the whole buffer, whose value is the body's
  arithmetic (the payload) of the four loaded blocks. The proof data record exactly that, the invariant is the
  class of bodies that touch nothing but their windows, and nothing is owed.
-/
import proofs.«178535_j21251498181020_1_alg».proof.Proof.Gen.Kernel.Launch
import proofs.«178535_j21251498181020_1_alg».proof.Proof.Gen.Kernel.Skeleton
import proofs.«178535_j21251498181020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S256x2048 := Rect.unit (s := S256x2048) ![0, 0] S256x2048.size inb_S256x2048_S256x2048_0_0
abbrev rW0 : Rect S2048x4096 := Rect.unit (s := S2048x4096) ![0, 0] S2048x4096.size inb_S2048x4096_S2048x4096_0_0
abbrev rG0 : Rect S4096 := Rect.unit (s := S4096) ![0] S4096.size inb_S4096_S4096_0
abbrev rQ0 : Rect S256x4096 := Rect.unit (s := S256x4096) ![0, 0] S256x4096.size inb_S256x4096_S256x4096_0_0
abbrev rS0 : Rect S256x1 := Rect.unit (s := S256x1) ![0, 0] S256x1.size inb_S256x1_S256x1_0_0

/-- The quantised rows' buffer after the body: its one store, of the quantised payload of the four loaded blocks. -/
def out0_4 (x0 : Vec F S256x2048 .f32) (x1 : Vec F S2048x4096 .bf16) (x2 : Vec F S4096 .f32) (x3 : Vec F S4096 .f32) : Vec F S256x4096 .bf16 :=
  View.canon [⟨rQ0, k0_pay3 (View.ld x0 rX0) (View.ld x1 rW0) (View.ld x2 rG0) (View.ld x3 rG0)⟩]
/-- The row scales' buffer after the body: its one store, of the scale payload. -/
def out0_5 (x0 : Vec F S256x2048 .f32) (x1 : Vec F S2048x4096 .bf16) (x2 : Vec F S4096 .f32) (x3 : Vec F S4096 .f32) : Vec F S256x1 .f32 :=
  View.canon [⟨rS0, k0_pay2 (View.ld x0 rX0) (View.ld x1 rW0) (View.ld x2 rG0) (View.ld x3 rG0)⟩]

theorem cover0_4 (p0 : Vec F S256x4096 .bf16) (y : S256x4096.Idx) :
    ∃ pc ∈ ([⟨rQ0, p0⟩] : List (View.Piece (Elt F) S256x4096 .bf16)), y ∈ pc.1.set :=
  View.cover_of_tiled [⟨rQ0, p0⟩] S256x4096.size (by rfl) y
theorem cover0_5 (p0 : Vec F S256x1 .f32) (y : S256x1.Idx) :
    ∃ pc ∈ ([⟨rS0, p0⟩] : List (View.Piece (Elt F) S256x1 .f32)), y ∈ pc.1.set :=
  View.cover_of_tiled [⟨rS0, p0⟩] S256x1.size (by rfl) y

set_option maxHeartbeats 4000000 in
/-- The body on whole staging buffers, the inputs' at contents x0 … x3 and the outputs' at anything, runs to the
    continuation holding the inputs' unchanged and each output's at its stated contents. -/
theorem sound_kernel0 (c : Dev nD) (E : Set ℕ) (i : grid0.Coords) (arg1 : Memref sig .tc .vmem S256x2048 .f32) (harg1 : arg1.IsWhole) (arg2 : Memref sig .tc .vmem S2048x4096 .bf16) (harg2 : arg2.IsWhole) (arg3 : Memref sig .tc .vmem S4096 .f32) (harg3 : arg3.IsWhole) (arg4 : Memref sig .tc .vmem S4096 .f32) (harg4 : arg4.IsWhole) (arg5 : Memref sig .tc .vmem S256x4096 .bf16) (harg5 : arg5.IsWhole) (arg6 : Memref sig .tc .vmem S256x1 .f32) (harg6 : arg6.IsWhole)
    (x0 : Vec F S256x2048 .f32) (x1 : Vec F S2048x4096 .bf16) (x2 : Vec F S4096 .f32) (x3 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__student_kernel i arg1 harg1 arg2 harg2 arg3 harg3 arg4 harg4 arg5 harg5 arg6 harg6) K := by
  simp only [cc0__student_kernel_eq_skeleton]; unfold cc0__student_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.TeacherRegion.lean ====
/-
  The teacher region (the second pallas_call): RMS normalisation and per-row quantisation of a block of 256 teacher
  rows, at any float instance, stated at a parameter V (the buffers' contents when the region is entered). At grid
  point t the body reads the t-th block of 256 rows of the reshaped teacher array and the gain, and writes the t-th
  block of 256 quantised rows and the 256 row scales, each by one store covering the whole buffer.
-/
import proofs.«178535_j21251498181020_1_alg».proof.Proof.Gen.Kernel.Launch
import proofs.«178535_j21251498181020_1_alg».proof.Proof.Gen.Kernel.Skeleton
import proofs.«178535_j21251498181020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S256x4096 := Rect.unit (s := S256x4096) ![0, 0] S256x4096.size inb_S256x4096_S256x4096_0_0
abbrev rG1 : Rect S4096 := Rect.unit (s := S4096) ![0] S4096.size inb_S4096_S4096_0
abbrev rS1 : Rect S256x1 := Rect.unit (s := S256x1) ![0, 0] S256x1.size inb_S256x1_S256x1_0_0

/-- The quantised rows' buffer after the body: its one store, of the quantised payload of the two loaded blocks. -/
def out1_2 (x0 : Vec F S256x4096 .f32) (x1 : Vec F S4096 .f32) : Vec F S256x4096 .bf16 :=
  View.canon [⟨rX1, k1_pay3 (View.ld x0 rX1) (View.ld x1 rG1)⟩]
/-- The row scales' buffer after the body: its one store, of the scale payload. -/
def out1_3 (x0 : Vec F S256x4096 .f32) (x1 : Vec F S4096 .f32) : Vec F S256x1 .f32 :=
  View.canon [⟨rS1, k1_pay2 (View.ld x0 rX1) (View.ld x1 rG1)⟩]

theorem cover1_2 (p0 : Vec F S256x4096 .bf16) (y : S256x4096.Idx) :
    ∃ pc ∈ ([⟨rX1, p0⟩] : List (View.Piece (Elt F) S256x4096 .bf16)), y ∈ pc.1.set :=
  View.cover_of_tiled [⟨rX1, p0⟩] S256x4096.size (by rfl) y
theorem cover1_3 (p0 : Vec F S256x1 .f32) (y : S256x1.Idx) :
    ∃ pc ∈ ([⟨rS1, p0⟩] : List (View.Piece (Elt F) S256x1 .f32)), y ∈ pc.1.set :=
  View.cover_of_tiled [⟨rS1, p0⟩] S256x1.size (by rfl) y

set_option maxHeartbeats 4000000 in
theorem sound_kernel1 (c : Dev nD) (E : Set ℕ) (i : grid1.Coords) (arg1 : Memref sig .tc .vmem S256x4096 .f32) (harg1 : arg1.IsWhole) (arg2 : Memref sig .tc .vmem S4096 .f32) (harg2 : arg2.IsWhole) (arg3 : Memref sig .tc .vmem S256x4096 .bf16) (harg3 : arg3.IsWhole) (arg4 : Memref sig .tc .vmem S256x1 .f32) (harg4 : arg4.IsWhole)
    (x0 : Vec F S256x4096 .f32) (x1 : Vec F S4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__teacher_kernel i arg1 harg1 arg2 harg2 arg3 harg3 arg4 harg4) K := by
  simp only [cc1__teacher_kernel_eq_skeleton]; unfold cc1__teacher_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.SimRuns.lean ====
/-
  The similarity region (the third pallas_call), first part: the body's run in each of its three control cases.
  The grid has 64 points (batch × row tile × column tile). The body zeroes a one-element scratch accumulator at the
  first point, adds to it at every point the sum over a 512 × 512 tile of (student row · teacher row) × student scale
  × teacher scale, and copies it to the one-element output at the last point. So a point is in one of three cases:
  the first (zero, then accumulate), a middle one (accumulate), the last (accumulate, then copy out). In each case
  the body, run on whole buffers holding the four input blocks, leaves the inputs as they were and the scratch (and,
  in the last case, the output) written with the pieces the run finds.
-/
import proofs.«178535_j21251498181020_1_alg».proof.Proof.Gen.Kernel.Launch
import proofs.«178535_j21251498181020_1_alg».proof.Proof.Gen.Kernel.Skeleton
import proofs.«178535_j21251498181020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- "This is the first point": all three coordinates are 0. -/
abbrev cond2_0 (i : grid2.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": all three coordinates are 3. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-- Away from the last point the output window is idle (the body stores nothing into it) and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The three runs -/

set_option maxHeartbeats 4000000 in
/-- The first point: the scratch, found at anything, is zeroed and then accumulated into; the output is untouched. -/
noncomputable def kernelRun2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i)
    (x0 : Vec F S1x512x4096 .bf16) (x1 : Vec F S1x512x1 .f32) (x2 : Vec F S1x512x4096 .bf16) (x3 : Vec F S1x1x512 .f32) :
    { LS : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, fun xi4 E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- A middle point: the scratch, found at xs, is accumulated into; the output is untouched. -/
noncomputable def kernelRun2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i)
    (x0 : Vec F S1x512x4096 .bf16) (x1 : Vec F S1x512x1 .f32) (x2 : Vec F S1x512x4096 .bf16) (x3 : Vec F S1x1x512 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, fun xi4 E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- The last point: the scratch, found at xs, is accumulated into and then copied to the output, found at anything. -/
noncomputable def kernelRun2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i)
    (x0 : Vec F S1x512x4096 .bf16) (x1 : Vec F S1x512x1 .f32) (x2 : Vec F S1x512x4096 .bf16) (x3 : Vec F S1x1x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, ?_, fun E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.Kernel.SimRegion.lean ====
/-
  The similarity region (the third pallas_call), second part: its proof data and body obligation, at any float
  instance, stated at a parameter V (the buffers' contents when the region is entered).
  What the scratch accumulator holds after point n is defined by recursion on n from the three runs: after the first
  point what the first case leaves, after a later point what the middle (or last) case leaves over what the point
  before left. The output buffer is stored only at the last point; at every other point the window is idle and its
  buffer is handed back untouched. The region's invariant carries the scratch: before the first point the scratch
  holds anything, before a later point it holds exactly what the point before left; every other scoped buffer and the
  generator register ride along unopened.
-/
import proofs.«178535_j21251498181020_1_alg».proof.Proof.Kernel.SimRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-! ## The buffers the body is called with -/

abbrev VO2_4 : View sig .tc .vmem S1x1 .f32 := (Memref.whole cc2_stg4_0 : Memref sig .tc .vmem S1x1 .f32).view
abbrev ms2_0 (t : Fin cfg2.N) : Memref sig .tc .vmem S1x512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The scratch accumulator, a whole scoped buffer of the kernel's own. -/
abbrev scM2 : Memref sig .tc .vmem S1x1 .f32 := Memref.whole cc2_scratch0
abbrev VS2 : View sig .tc .vmem S1x1 .f32 := scM2.view

/-! ## What each case leaves -/

theorem scover2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i) (x0 : Vec F S1x512x4096 .bf16) (x1 : Vec F S1x512x1 .f32) (x2 : Vec F S1x512x4096 .bf16) (x3 : Vec F S1x1x512 .f32) (y : S1x1.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1x1.size (by sl_kernel_rfl) y
/-- The scratch after the first point. -/
def sout2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i) (x0 : Vec F S1x512x4096 .bf16) (x1 : Vec F S1x512x1 .f32) (x2 : Vec F S1x512x4096 .bf16) (x3 : Vec F S1x1x512 .f32) : Vec F S1x1 .f32 :=
  VS2.read (Elt F) (VS2.writes (Elt F) VS2.junk (kernelRun2_A c i arg3 harg3 arg4 harg4 arg5 harg5 arg6 harg6 arg7 harg7 arg8 harg8 hc0 hc1 x0 x1 x2 x3).1)

theorem scover2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1x1.size (by sl_kernel_rfl) y
/-- The scratch after a middle point, over what the point before left (xs). -/
def sout2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VS2.read (Elt F) (VS2.writes (Elt F) VS2.junk (kernelRun2_B c i arg3 harg3 arg4 harg4 arg5 harg5 arg6 harg6 arg7 harg7 arg8 harg8 hc0 hc1 x0 x1 x2 x3 xs).1)

theorem cover2_C_4 (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1x1.size (by sl_kernel_rfl) y
/-- The output buffer after the last point. -/
def out2_C_4 (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs).1)
theorem scover2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1x1.size (by sl_kernel_rfl) y
/-- The scratch after the last point. -/
def sout2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

/-- The output buffer's stated contents at a point where it is idle: a placeholder nothing consults. -/
def idleOut2 : Vec F S1x1 .f32 := VO2_4.read (Elt F) VO2_4.junk

/-! ## The accumulation, point by point -/

/-- What the output buffer and the scratch hold after the body at position n. -/
def outsAt2 (c : Dev nD) : (n : ℕ) → n < cfg2.N → Vec F S1x1 .f32 × Vec F S1x1 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (fun h' => by (try dsimp only at h'); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 63 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val = 0) (h1 : ¬t.val = 63) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 63) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 63) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The scoped buffers no window stages are the scratch and the rest. -/
theorem PhiA2_eq (c : Dev nD) :
    (Pipeline.ΦA spec2 c : sProp 𝕄)
      = iprop(iprop((∃ d, owns (c : Thread nD τ) scM2 fullShare d) ∗ Pipeline.scopedRestBut spec2 c [cc2_scratch0]) ∗ (∃ r, prngReg c r)) := by
  unfold Pipeline.ΦA
  rw [Pipeline.scopedRest_split_of_list spec2 c [cc2_scratch0] (by decide) (by decide)]
  simp only [scM2, owns_whole, bigSepL_singleton]; try rfl

/-- Before position n: at the start the class of bodies that carry nothing; later, the scratch at what the point
    before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the closed forms say which case the point is in; the invariant hands the body the scratch
    at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
        unfold Dat.leavesExact; rw [liveAt2_0 t], after2_0,
        show (dat2 V c).leavesExact 1 t = owns (c : Thread nD τ) (ms2_1 t) fullShare ((dat2 V c).after 1 t) from by
        unfold Dat.leavesExact; rw [liveAt2_1 t], after2_1,
        show (dat2 V c).leavesExact 2 t = owns (c : Thread nD τ) (ms2_2 t) fullShare ((dat2 V c).after 2 t) from by
        unfold Dat.leavesExact; rw [liveAt2_2 t], after2_2,
        show (dat2 V c).leavesExact 3 t = owns (c : Thread nD τ) (ms2_3 t) fullShare ((dat2 V c).after 3 t) from by
        unfold Dat.leavesExact; rw [liveAt2_3 t], after2_3]
  have hN : t.val < 64 := lt_of_lt_of_eq t.isLt (show cfg2.N = 64 from N_2)
  by_cases h0 : t.val = 0
  · have h1 : ¬t.val = 63 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    rw [PhiS2_castSucc V c t, PhiS2_zero V c _ _ h0, PhiA2_eq]
    iintro ⟨⟨⟨HS, Hrest⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C; (try dsimp only)
      rw [PhiS2_castSucc V c t, PhiS2_pos V c _ _ h0]
      iintro ⟨⟨⟨HS, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ _ h0]
      iintro ⟨⟨⟨HS, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]
    · iexists _; iexact HS
    iexact Hrest
  iexact Hg

end Cert.Kernel.Hand

end
-- ==== Proof.Kernel.Run.lean ====
/-
  The run of @main, at any float instance: three host stretches and three kernel regions in order. The contents of
  the core's buffers at each boundary are a fold from the launch memory: a host stretch applies its operations; a
  region leaves its windows' arrays at what its write-backs produce (the inputs as entered) and every other buffer
  as entered. Each region is entered from "every unscoped buffer at the boundary's contents, the generator register
  at some state, nothing owed" and left at the same with the next boundary's contents. So every weakly fair execution
  terminates with every unscoped buffer at the last boundary's contents; in particular the six arguments, which no
  item writes, end as launched, and the result buffer holds the last stretch's term.
-/
import proofs.«178535_j21251498181020_1_alg».proof.Proof.Kernel.StudentRegion
import proofs.«178535_j21251498181020_1_alg».proof.Proof.Kernel.TeacherRegion
import proofs.«178535_j21251498181020_1_alg».proof.Proof.Kernel.SimRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)

/-! ## No item writes an argument -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    refine BIBase.Entails.trans (hout2 (V4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Hand

end
-- ==== Proof.KernelIdeal.StudentRegion.lean ====
/-
  The student region (the first pallas_call): projection, RMS normalisation and per-row quantisation of a block of
  256 student rows, at any float instance. Stated at a parameter V, the contents of the core's buffers when the
  region is entered. At grid point t the body reads the t-th block of 256 rows of the reshaped student array, the
  whole projection matrix, the bias and the gain, and writes the t-th block of 256 quantised rows and the 256 row
  scales; each output buffer after the body is one store covering the whole buffer, whose value is the body's
  arithmetic (the payload) of the four loaded blocks. The proof data record exactly that, the invariant is the
  class of bodies that touch nothing but their windows, and nothing is owed.
-/
import proofs.«178535_j21251498181020_1_alg».proof.Proof.Gen.KernelIdeal.Launch
import proofs.«178535_j21251498181020_1_alg».proof.Proof.Gen.KernelIdeal.Skeleton
import proofs.«178535_j21251498181020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S256x2048 := Rect.unit (s := S256x2048) ![0, 0] S256x2048.size inb_S256x2048_S256x2048_0_0
abbrev rW0 : Rect S2048x4096 := Rect.unit (s := S2048x4096) ![0, 0] S2048x4096.size inb_S2048x4096_S2048x4096_0_0
abbrev rG0 : Rect S4096 := Rect.unit (s := S4096) ![0] S4096.size inb_S4096_S4096_0
abbrev rQ0 : Rect S256x4096 := Rect.unit (s := S256x4096) ![0, 0] S256x4096.size inb_S256x4096_S256x4096_0_0
abbrev rS0 : Rect S256x1 := Rect.unit (s := S256x1) ![0, 0] S256x1.size inb_S256x1_S256x1_0_0

/-- The quantised rows' buffer after the body: its one store, of the quantised payload of the four loaded blocks. -/
def out0_4 (x0 : Vec F S256x2048 .f32) (x1 : Vec F S2048x4096 .bf16) (x2 : Vec F S4096 .f32) (x3 : Vec F S4096 .f32) : Vec F S256x4096 .bf16 :=
  View.canon [⟨rQ0, k0_pay3 (View.ld x0 rX0) (View.ld x1 rW0) (View.ld x2 rG0) (View.ld x3 rG0)⟩]
/-- The row scales' buffer after the body: its one store, of the scale payload. -/
def out0_5 (x0 : Vec F S256x2048 .f32) (x1 : Vec F S2048x4096 .bf16) (x2 : Vec F S4096 .f32) (x3 : Vec F S4096 .f32) : Vec F S256x1 .f32 :=
  View.canon [⟨rS0, k0_pay2 (View.ld x0 rX0) (View.ld x1 rW0) (View.ld x2 rG0) (View.ld x3 rG0)⟩]

theorem cover0_4 (p0 : Vec F S256x4096 .bf16) (y : S256x4096.Idx) :
    ∃ pc ∈ ([⟨rQ0, p0⟩] : List (View.Piece (Elt F) S256x4096 .bf16)), y ∈ pc.1.set :=
  View.cover_of_tiled [⟨rQ0, p0⟩] S256x4096.size (by rfl) y
theorem cover0_5 (p0 : Vec F S256x1 .f32) (y : S256x1.Idx) :
    ∃ pc ∈ ([⟨rS0, p0⟩] : List (View.Piece (Elt F) S256x1 .f32)), y ∈ pc.1.set :=
  View.cover_of_tiled [⟨rS0, p0⟩] S256x1.size (by rfl) y

set_option maxHeartbeats 4000000 in
/-- The body on whole staging buffers, the inputs' at contents x0 … x3 and the outputs' at anything, runs to the
    continuation holding the inputs' unchanged and each output's at its stated contents. -/
theorem sound_kernel0 (c : Dev nD) (E : Set ℕ) (i : grid0.Coords) (arg1 : Memref sig .tc .vmem S256x2048 .f32) (harg1 : arg1.IsWhole) (arg2 : Memref sig .tc .vmem S2048x4096 .bf16) (harg2 : arg2.IsWhole) (arg3 : Memref sig .tc .vmem S4096 .f32) (harg3 : arg3.IsWhole) (arg4 : Memref sig .tc .vmem S4096 .f32) (harg4 : arg4.IsWhole) (arg5 : Memref sig .tc .vmem S256x4096 .bf16) (harg5 : arg5.IsWhole) (arg6 : Memref sig .tc .vmem S256x1 .f32) (harg6 : arg6.IsWhole)
    (x0 : Vec F S256x2048 .f32) (x1 : Vec F S2048x4096 .bf16) (x2 : Vec F S4096 .f32) (x3 : Vec F S4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__student_kernel i arg1 harg1 arg2 harg2 arg3 harg3 arg4 harg4 arg5 harg5 arg6 harg6) K := by
  simp only [cc0__student_kernel_eq_skeleton]; unfold cc0__student_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.TeacherRegion.lean ====
/-
  The teacher region (the second pallas_call): RMS normalisation and per-row quantisation of a block of 256 teacher
  rows, at any float instance, stated at a parameter V (the buffers' contents when the region is entered). At grid
  point t the body reads the t-th block of 256 rows of the reshaped teacher array and the gain, and writes the t-th
  block of 256 quantised rows and the 256 row scales, each by one store covering the whole buffer.
-/
import proofs.«178535_j21251498181020_1_alg».proof.Proof.Gen.KernelIdeal.Launch
import proofs.«178535_j21251498181020_1_alg».proof.Proof.Gen.KernelIdeal.Skeleton
import proofs.«178535_j21251498181020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S256x4096 := Rect.unit (s := S256x4096) ![0, 0] S256x4096.size inb_S256x4096_S256x4096_0_0
abbrev rG1 : Rect S4096 := Rect.unit (s := S4096) ![0] S4096.size inb_S4096_S4096_0
abbrev rS1 : Rect S256x1 := Rect.unit (s := S256x1) ![0, 0] S256x1.size inb_S256x1_S256x1_0_0

/-- The quantised rows' buffer after the body: its one store, of the quantised payload of the two loaded blocks. -/
def out1_2 (x0 : Vec F S256x4096 .f32) (x1 : Vec F S4096 .f32) : Vec F S256x4096 .bf16 :=
  View.canon [⟨rX1, k1_pay3 (View.ld x0 rX1) (View.ld x1 rG1)⟩]
/-- The row scales' buffer after the body: its one store, of the scale payload. -/
def out1_3 (x0 : Vec F S256x4096 .f32) (x1 : Vec F S4096 .f32) : Vec F S256x1 .f32 :=
  View.canon [⟨rS1, k1_pay2 (View.ld x0 rX1) (View.ld x1 rG1)⟩]

theorem cover1_2 (p0 : Vec F S256x4096 .bf16) (y : S256x4096.Idx) :
    ∃ pc ∈ ([⟨rX1, p0⟩] : List (View.Piece (Elt F) S256x4096 .bf16)), y ∈ pc.1.set :=
  View.cover_of_tiled [⟨rX1, p0⟩] S256x4096.size (by rfl) y
theorem cover1_3 (p0 : Vec F S256x1 .f32) (y : S256x1.Idx) :
    ∃ pc ∈ ([⟨rS1, p0⟩] : List (View.Piece (Elt F) S256x1 .f32)), y ∈ pc.1.set :=
  View.cover_of_tiled [⟨rS1, p0⟩] S256x1.size (by rfl) y

set_option maxHeartbeats 4000000 in
theorem sound_kernel1 (c : Dev nD) (E : Set ℕ) (i : grid1.Coords) (arg1 : Memref sig .tc .vmem S256x4096 .f32) (harg1 : arg1.IsWhole) (arg2 : Memref sig .tc .vmem S4096 .f32) (harg2 : arg2.IsWhole) (arg3 : Memref sig .tc .vmem S256x4096 .bf16) (harg3 : arg3.IsWhole) (arg4 : Memref sig .tc .vmem S256x1 .f32) (harg4 : arg4.IsWhole)
    (x0 : Vec F S256x4096 .f32) (x1 : Vec F S4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__teacher_kernel i arg1 harg1 arg2 harg2 arg3 harg3 arg4 harg4) K := by
  simp only [cc1__teacher_kernel_eq_skeleton]; unfold cc1__teacher_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.SimRuns.lean ====
/-
  The similarity region (the third pallas_call), first part: the body's run in each of its three control cases.
  The grid has 64 points (batch × row tile × column tile). The body zeroes a one-element scratch accumulator at the
  first point, adds to it at every point the sum over a 512 × 512 tile of (student row · teacher row) × student scale
  × teacher scale, and copies it to the one-element output at the last point. So a point is in one of three cases:
  the first (zero, then accumulate), a middle one (accumulate), the last (accumulate, then copy out). In each case
  the body, run on whole buffers holding the four input blocks, leaves the inputs as they were and the scratch (and,
  in the last case, the output) written with the pieces the run finds.
-/
import proofs.«178535_j21251498181020_1_alg».proof.Proof.Gen.KernelIdeal.Launch
import proofs.«178535_j21251498181020_1_alg».proof.Proof.Gen.KernelIdeal.Skeleton
import proofs.«178535_j21251498181020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- "This is the first point": all three coordinates are 0. -/
abbrev cond2_0 (i : grid2.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": all three coordinates are 3. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-- Away from the last point the output window is idle (the body stores nothing into it) and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last point it is live. -/
theorem liveAt2_4 : ∀ t : Fin cfg2.N, cond2_1 (grid2.coords t) → cfg2.idle 4 (grid2.coords t) = false := by decide +kernel

/-! ## The three runs -/

set_option maxHeartbeats 4000000 in
/-- The first point: the scratch, found at anything, is zeroed and then accumulated into; the output is untouched. -/
noncomputable def kernelRun2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i)
    (x0 : Vec F S1x512x4096 .bf16) (x1 : Vec F S1x512x1 .f32) (x2 : Vec F S1x512x4096 .bf16) (x3 : Vec F S1x1x512 .f32) :
    { LS : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, fun xi4 E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- A middle point: the scratch, found at xs, is accumulated into; the output is untouched. -/
noncomputable def kernelRun2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i)
    (x0 : Vec F S1x512x4096 .bf16) (x1 : Vec F S1x512x1 .f32) (x2 : Vec F S1x512x4096 .bf16) (x3 : Vec F S1x1x512 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, fun xi4 E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- The last point: the scratch, found at xs, is accumulated into and then copied to the output, found at anything. -/
noncomputable def kernelRun2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i)
    (x0 : Vec F S1x512x4096 .bf16) (x1 : Vec F S1x512x1 .f32) (x2 : Vec F S1x512x4096 .bf16) (x3 : Vec F S1x1x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__sim_kernel i arg3 harg3 arg4 harg4 arg5 harg5 arg6 harg6 arg7 harg7 arg8 harg8) K } := by
  refine ⟨?_, ?_, fun E K => ?run⟩
  case run =>
    simp only [cc2__sim_kernel_eq_skeleton]; unfold cc2__sim_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KernelIdeal.SimRegion.lean ====
/-
  The similarity region (the third pallas_call), second part: its proof data and body obligation, at any float
  instance, stated at a parameter V (the buffers' contents when the region is entered).
  What the scratch accumulator holds after point n is defined by recursion on n from the three runs: after the first
  point what the first case leaves, after a later point what the middle (or last) case leaves over what the point
  before left. The output buffer is stored only at the last point; at every other point the window is idle and its
  buffer is handed back untouched. The region's invariant carries the scratch: before the first point the scratch
  holds anything, before a later point it holds exactly what the point before left; every other scoped buffer and the
  generator register ride along unopened.
-/
import proofs.«178535_j21251498181020_1_alg».proof.Proof.KernelIdeal.SimRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-! ## The buffers the body is called with -/

abbrev VO2_4 : View sig .tc .vmem S1x1 .f32 := (Memref.whole cc2_stg4_0 : Memref sig .tc .vmem S1x1 .f32).view
abbrev ms2_0 (t : Fin cfg2.N) : Memref sig .tc .vmem S1x512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The scratch accumulator, a whole scoped buffer of the kernel's own. -/
abbrev scM2 : Memref sig .tc .vmem S1x1 .f32 := Memref.whole cc2_scratch0
abbrev VS2 : View sig .tc .vmem S1x1 .f32 := scM2.view

/-! ## What each case leaves -/

theorem scover2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i) (x0 : Vec F S1x512x4096 .bf16) (x1 : Vec F S1x512x1 .f32) (x2 : Vec F S1x512x4096 .bf16) (x3 : Vec F S1x1x512 .f32) (y : S1x1.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S1x1.size (by sl_kernel_rfl) y
/-- The scratch after the first point. -/
def sout2_A (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i) (x0 : Vec F S1x512x4096 .bf16) (x1 : Vec F S1x512x1 .f32) (x2 : Vec F S1x512x4096 .bf16) (x3 : Vec F S1x1x512 .f32) : Vec F S1x1 .f32 :=
  VS2.read (Elt F) (VS2.writes (Elt F) VS2.junk (kernelRun2_A c i arg3 harg3 arg4 harg4 arg5 harg5 arg6 harg6 arg7 harg7 arg8 harg8 hc0 hc1 x0 x1 x2 x3).1)

theorem scover2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S1x1.size (by sl_kernel_rfl) y
/-- The scratch after a middle point, over what the point before left (xs). -/
def sout2_B (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VS2.read (Elt F) (VS2.writes (Elt F) VS2.junk (kernelRun2_B c i arg3 harg3 arg4 harg4 arg5 harg5 arg6 harg6 arg7 harg7 arg8 harg8 hc0 hc1 x0 x1 x2 x3 xs).1)

theorem cover2_C_4 (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1x1.size (by sl_kernel_rfl) y
/-- The output buffer after the last point. -/
def out2_C_4 (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VO2_4.read (Elt F) (VO2_4.writes (Elt F) VO2_4.junk (kernelRun2_C c i arg3 harg3 arg4 harg4 arg5 harg5 arg6 harg6 arg7 harg7 arg8 harg8 hc0 hc1 x0 x1 x2 x3 xs).1)
theorem scover2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1x1.size (by sl_kernel_rfl) y
/-- The scratch after the last point. -/
def sout2_C (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) : Vec F S1x1 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

/-- The output buffer's stated contents at a point where it is idle: a placeholder nothing consults. -/
def idleOut2 : Vec F S1x1 .f32 := VO2_4.read (Elt F) VO2_4.junk

/-! ## The accumulation, point by point -/

/-- What the output buffer and the scratch hold after the body at position n. -/
def outsAt2 (c : Dev nD) : (n : ℕ) → n < cfg2.N → Vec F S1x1 .f32 × Vec F S1x1 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => (fun h' => by (try dsimp only at h'); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 63 then
      (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => (fun h' => by (try dsimp only at h'); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val = 0) (h1 : ¬t.val = 63) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 63) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 63) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The scoped buffers no window stages are the scratch and the rest. -/
theorem PhiA2_eq (c : Dev nD) :
    (Pipeline.ΦA spec2 c : sProp 𝕄)
      = iprop(iprop((∃ d, owns (c : Thread nD τ) scM2 fullShare d) ∗ Pipeline.scopedRestBut spec2 c [cc2_scratch0]) ∗ (∃ r, prngReg c r)) := by
  unfold Pipeline.ΦA
  rw [Pipeline.scopedRest_split_of_list spec2 c [cc2_scratch0] (by decide) (by decide)]
  simp only [scM2, owns_whole, bigSepL_singleton]; try rfl

/-- Before position n: at the start the class of bodies that carry nothing; later, the scratch at what the point
    before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Pipeline.scopedRestBut spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the closed forms say which case the point is in; the invariant hands the body the scratch
    at what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
        unfold Dat.leavesExact; rw [liveAt2_0 t], after2_0,
        show (dat2 V c).leavesExact 1 t = owns (c : Thread nD τ) (ms2_1 t) fullShare ((dat2 V c).after 1 t) from by
        unfold Dat.leavesExact; rw [liveAt2_1 t], after2_1,
        show (dat2 V c).leavesExact 2 t = owns (c : Thread nD τ) (ms2_2 t) fullShare ((dat2 V c).after 2 t) from by
        unfold Dat.leavesExact; rw [liveAt2_2 t], after2_2,
        show (dat2 V c).leavesExact 3 t = owns (c : Thread nD τ) (ms2_3 t) fullShare ((dat2 V c).after 3 t) from by
        unfold Dat.leavesExact; rw [liveAt2_3 t], after2_3]
  have hN : t.val < 64 := lt_of_lt_of_eq t.isLt (show cfg2.N = 64 from N_2)
  by_cases h0 : t.val = 0
  · have h1 : ¬t.val = 63 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    rw [PhiS2_castSucc V c t, PhiS2_zero V c _ _ h0, PhiA2_eq]
    iintro ⟨⟨⟨HS, Hrest⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C; (try dsimp only)
      rw [PhiS2_castSucc V c t, PhiS2_pos V c _ _ h0]
      iintro ⟨⟨⟨HS, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ _ h0]
      iintro ⟨⟨⟨HS, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, Hrest⟩, Hg⟩
  isplitl [HS Hrest]
  · isplitl [HS]
    · iexists _; iexact HS
    iexact Hrest
  iexact Hg

end Cert.KernelIdeal.Hand

end
-- ==== Proof.KernelIdeal.Run.lean ====
/-
  The run of @main, at any float instance: three host stretches and three kernel regions in order. The contents of
  the core's buffers at each boundary are a fold from the launch memory: a host stretch applies its operations; a
  region leaves its windows' arrays at what its write-backs produce (the inputs as entered) and every other buffer
  as entered. Each region is entered from "every unscoped buffer at the boundary's contents, the generator register
  at some state, nothing owed" and left at the same with the next boundary's contents. So every weakly fair execution
  terminates with every unscoped buffer at the last boundary's contents; in particular the six arguments, which no
  item writes, end as launched, and the result buffer holds the last stretch's term.
-/
import proofs.«178535_j21251498181020_1_alg».proof.Proof.KernelIdeal.StudentRegion
import proofs.«178535_j21251498181020_1_alg».proof.Proof.KernelIdeal.TeacherRegion
import proofs.«178535_j21251498181020_1_alg».proof.Proof.KernelIdeal.SimRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)

/-! ## No item writes an argument -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    refine BIBase.Entails.trans (hout2 (V4 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Hand

end
-- ==== Proof.KernelIdeal.Keepdims.lean ====
/-
  A column of per-row numbers. A reduction along a row leaves one number per row; the programs keep it as a
  one-column matrix and then spread it along the row again. Read at an index: an [a] array cast to [a, 1] has,
  at (i, 0), the array's entry i; an [a, 1] array spread to [a, b] has, at (p, c), the column's entry at row p.
  The sum and the maximum along a row of a matrix of extended reals are the sum and the running maximum over the
  row's entries; the index a reduction along the second axis inserts over row p at k is (p, k).
-/
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

namespace Cert.KernelIdeal.Hand

open Idealize.ShloMosaic Idealize.ShloMosaic.ValueIdx
open scoped BigOperators

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` matrix along its second axis: the index inserted over row `p` at coordinate `k` is `(p, k)`. -/
theorem lift_row_eq {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The reciprocal square root and the absolute value of an array of extended reals, read at an index. -/
theorem rsqrt_apply {s : Shape} {φ : FTy} (x : FVec Ideal s φ) (i : s.Idx) : rsqrt x i = Ideal.rsqrt (x i) := rfl
theorem absf_apply {s : Shape} {φ : FTy} (x : FVec Ideal s φ) (i : s.Idx) : absf x i = max (x i) (-(x i)) := rfl

/-- The sum along the rows of an `[a, b]` matrix of extended reals, at row `r`: the sum of the row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_row_eq h r k))

/-- The maximum along the rows, at row `r`: the running maximum, from −∞, over the row's `b` entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) :=
  (Ideal.multiReduction_maximumf_single src 0xFF800000#32 h hφ hacc (ix1 r)).trans
    (congrArg (fun g => (Finset.univ : Finset (Fin b)).fold max (Ideal.ofBits .f32 0xFF800000#32) g)
      (funext fun k => congrArg src (lift_row_eq h r k)))

/-- The offsets of a rectangle that is a whole buffer are zero on every axis. -/
theorem zeros2 : (![0, 0] : Fin 2 → Nat) = fun _ => 0 := by
  funext a; match a with | ⟨0, _⟩ => rfl | ⟨1, _⟩ => rfl
theorem zeros1 : (![0] : Fin 1 → Nat) = fun _ => 0 := by
  funext a; match a with | ⟨0, _⟩ => rfl

end Cert.KernelIdeal.Hand

end
-- ==== Proof.Spec.lean ====
/-
  The specification: the distillation loss as one function of the six argument arrays, over the extended reals.
  A row x of 4096 numbers with gain g is RMS-normalised to x f · rsqrt(mean of squares + ε) · g f; its scale is
  max(max_f |norm f| / 448, ε); its quantised values are norm f / scale. A student row is first projected,
  (Σ_k s k · w k f) + b f. The loss is minus the sum, over the batch b and the row pairs (i, j), of the inner product
  of the quantised student row (b, i) with the quantised teacher row (b, j), times both rows' scales, divided by the
  number of such pairs (2^24). The literals are kept as the float words both programs print.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The ε both programs add to a mean of squares and clamp a scale by (the float word of 1e-6). -/
def eps : EReal := Ideal.ofBits .f32 0x358637BD#32
/-- The row length 4096 a sum of squares is divided by. -/
def rowLen : EReal := Ideal.ofBits .f32 0x45800000#32
/-- The quantisation range 448 a row's largest magnitude is divided by. -/
def qmax : EReal := Ideal.ofBits .f32 0x43E00000#32
/-- The number of similarity entries, 4 · 2048 · 2048 = 2^24. -/
def count : EReal := Ideal.ofBits .f32 0x4B800000#32
/-- The value a running maximum starts from (the float word of −∞). -/
def negInf : EReal := Ideal.ofBits .f32 0xFF800000#32

/-- A row's RMS-normalised, gained values. -/
def normRow (x g : Fin 4096 → EReal) (f : Fin 4096) : EReal :=
  x f * Ideal.rsqrt (Ideal.div (∑ k : Fin 4096, x k * x k) rowLen + eps) * g f

/-- A row's quantisation scale: its largest normalised magnitude over 448, at least ε. -/
def scaleRow (x g : Fin 4096 → EReal) : EReal :=
  max (Ideal.div ((Finset.univ : Finset (Fin 4096)).fold max negInf fun f => max (normRow x g f) (-(normRow x g f))) qmax) eps

/-- A row's quantised values. -/
def quantRow (x g : Fin 4096 → EReal) (f : Fin 4096) : EReal :=
  Ideal.div (normRow x g f) (scaleRow x g)

/-- A student row projected to the teacher's width. -/
def projRow (s : Fin 2048 → EReal) (w : Fin 2048 → Fin 4096 → EReal) (b : Fin 4096 → EReal) (f : Fin 4096) : EReal :=
  (∑ k : Fin 2048, s k * w k f) + b f

/-- The sum of all dequantised similarities. -/
def total (sq tq : Fin 4 → Fin 2048 → Fin 4096 → EReal) (ss ts : Fin 4 → Fin 2048 → EReal) : EReal :=
  ∑ b : Fin 4, ∑ i : Fin 2048, ∑ j : Fin 2048, (∑ d : Fin 4096, sq b i d * tq b j d) * ss b i * ts b j

/-- The loss. -/
def loss (th : Fin 4 → Fin 2048 → Fin 4096 → EReal) (sh : Fin 4 → Fin 2048 → Fin 2048 → EReal)
    (w : Fin 2048 → Fin 4096 → EReal) (bb tg sg : Fin 4096 → EReal) : EReal :=
  -(Ideal.div (total (fun b i => quantRow (projRow (sh b i) w bb) sg) (fun b j => quantRow (th b j) tg)
      (fun b i => scaleRow (projRow (sh b i) w bb) sg) (fun b j => scaleRow (th b j) tg)) count)

end Cert.Spec

end
-- ==== Proof.KernelIdeal.StudentValue.lean ====
/-
  The values the student region writes, over the extended reals. A block of 256 student rows s (each of 2048
  numbers) is first projected to 4096 numbers, (Σ_k s k · w k f) + b f, with the whole matrix w and bias b; a change
  of float format is the identity on the extended reals, so the narrowing of the rows before the product changes
  nothing. The projected row is then RMS-normalised with the gain g, scaled and quantised as a teacher row is. Read
  at an index: the quantised block at (r, f) is quantRow of the projected row r at f, the column of scales at row r
  is scaleRow of the projected row r. The whole arrays after the region are the same functions of the whole student
  array's rows: the point that writes row i is i / 256, and it reads that same row.
-/
import proofs.«178535_j21251498181020_1_alg».proof.Proof.KernelIdeal.StudentRegion
import proofs.«178535_j21251498181020_1_alg».proof.Proof.KernelIdeal.Keepdims
import proofs.«178535_j21251498181020_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-! The projection's contraction: which operand entries the product at (r, f) meets at contraction coordinate q. -/
theorem lhs_proj_0 (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem lhs_proj_1 (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
theorem rhs_proj_0 (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
theorem rhs_proj_1 (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The product of a [256, 2048] block with the [2048, 4096] matrix, accumulated into zero, at (r, f): Σ_k L(r, k) · R(k, f). -/
theorem proj_matmul_apply (L : FVec Ideal S256x2048 .bf16) (R : FVec Ideal S2048x4096 .bf16) (r : Fin 256) (f : Fin 4096) :
    matmul dot_S256x2048_S2048x4096_S256x4096_1_0_0_1_n_n none L R (constant (F := Ideal) S256x4096 .f32 0x00000000#32) (ix2 r f)
      = ∑ k : Fin 2048, L (ix2 r k) * R (ix2 k f) := by
  simp only [matmul]
  rw [Ideal.matmul_constant_zero_apply, ← Equiv.sum_comp (ValueIdx.contrEquiv1 dot_S256x2048_S2048x4096_S256x4096_1_0_0_1_n_n 2048 rfl rfl).symm]
  refine Finset.sum_congr rfl fun k _ => ?_
  have hk := ValueIdx.contrEquiv1_symm_val dot_S256x2048_S2048x4096_S256x4096_1_0_0_1_n_n 2048 rfl rfl k
  have el : dot_S256x2048_S2048x4096_S256x4096_1_0_0_1_n_n.lhsIdx (ix2 r f) ((ValueIdx.contrEquiv1 dot_S256x2048_S2048x4096_S256x4096_1_0_0_1_n_n 2048 rfl rfl).symm k) = ix2 r k := funext fun a => Fin.ext (by
    match a with
    | ⟨0, _⟩ => exact lhs_proj_0 _ _
    | ⟨1, _⟩ => exact (lhs_proj_1 _ _).trans hk)
  have er : dot_S256x2048_S2048x4096_S256x4096_1_0_0_1_n_n.rhsIdx (ix2 r f) ((ValueIdx.contrEquiv1 dot_S256x2048_S2048x4096_S256x4096_1_0_0_1_n_n 2048 rfl rfl).symm k) = ix2 k f := funext fun a => Fin.ext (by
    match a with
    | ⟨0, _⟩ => exact (rhs_proj_0 _ _).trans hk
    | ⟨1, _⟩ => exact rhs_proj_1 _ _)
  rw [el, er]

/-- The projected block (product plus bias), at (r, f): the specification's projected row r at f. A change of float
    format is the identity on the extended reals, so the narrowed rows enter the product unchanged. -/
theorem k0_proj_apply (x0 : Vec Ideal S256x2048 .f32) (x1 : Vec Ideal S2048x4096 .bf16) (x2 : Vec Ideal S4096 .f32) (r : Fin 256) (f : Fin 4096) :
    addf (matmul (φ₁ := .bf16) (φ₂ := .bf16) dot_S256x2048_S2048x4096_S256x4096_1_0_0_1_n_n none (truncf .bf16 x0 bitsLt_bf16_f32) x1 (constant (F := Ideal) S256x4096 .f32 0x00000000#32))
        (broadcastTo S256x4096 (shapeCast S1x4096 x2 shapeCasts_S4096_S1x4096) broadcasts_S1x4096_S256x4096) (ix2 r f)
      = Cert.Spec.projRow (fun k => x0 (ix2 r k)) (fun k f' => x1 (ix2 k f')) (fun f' => x2 (ix1 f')) f := by
  unfold Cert.Spec.projRow
  rw [addf_apply, proj_matmul_apply, broadcastTo_1b_ab_apply, shapeCast_a_1a_apply]
  rfl

/-- The normalised, gained block of the student region, at (r, f): the specification's normalised projected row r at f. -/
theorem k0_pay1_apply (x0 : Vec Ideal S256x2048 .f32) (x1 : Vec Ideal S2048x4096 .bf16) (x2 x3 : Vec Ideal S4096 .f32) (r : Fin 256) (f : Fin 4096) :
    k0_pay1 (F := Ideal) x0 x1 x2 x3 (ix2 r f)
      = Cert.Spec.normRow (Cert.Spec.projRow (fun k => x0 (ix2 r k)) (fun k f' => x1 (ix2 k f')) (fun f' => x2 (ix1 f'))) (fun f' => x3 (ix1 f')) f := by
  unfold k0_pay1 Cert.Spec.normRow
  simp only [shapeCast_self]
  rw [mulf_apply, mulf_apply, broadcastTo_a1_ab_apply, broadcastTo_1b_ab_apply, shapeCast_a_1a_apply, k0_proj_apply]
  rw [rsqrt_apply, addf_apply, divf_apply, broadcast_apply, broadcast_apply, shapeCast_a_a1_apply]
  rw [rowSum_apply]
  simp only [mulf_apply, k0_proj_apply]
  rfl

/-- The column of scales, at row r: the specification's scale of the projected row r. -/
theorem k0_pay2_apply (x0 : Vec Ideal S256x2048 .f32) (x1 : Vec Ideal S2048x4096 .bf16) (x2 x3 : Vec Ideal S4096 .f32) (r : Fin 256) :
    k0_pay2 (F := Ideal) x0 x1 x2 x3 (ix2 r (0 : Fin 1))
      = Cert.Spec.scaleRow (Cert.Spec.projRow (fun k => x0 (ix2 r k)) (fun k f' => x1 (ix2 k f')) (fun f' => x2 (ix1 f'))) (fun f' => x3 (ix1 f')) := by
  unfold k0_pay2 Cert.Spec.scaleRow
  rw [maximumf_apply, divf_apply, broadcast_apply, broadcast_apply, shapeCast_a_a1_apply, rowMax_apply]
  simp only [absf_apply, k0_pay1_apply]
  rfl

/-- The quantised block, at (r, f): the specification's quantised projected row r at f. -/
theorem k0_pay3_apply (x0 : Vec Ideal S256x2048 .f32) (x1 : Vec Ideal S2048x4096 .bf16) (x2 x3 : Vec Ideal S4096 .f32) (r : Fin 256) (f : Fin 4096) :
    k0_pay3 (F := Ideal) x0 x1 x2 x3 (ix2 r f)
      = Cert.Spec.quantRow (Cert.Spec.projRow (fun k => x0 (ix2 r k)) (fun k f' => x1 (ix2 k f')) (fun f' => x2 (ix1 f'))) (fun f' => x3 (ix1 f')) f := by
  unfold k0_pay3 Cert.Spec.quantRow
  rw [truncf_apply, divf_apply, broadcastTo_a1_ab_apply, k0_pay1_apply, k0_pay2_apply]

/-- The student region's quantised-rows buffer after the body, at (r, f). -/
theorem out0_4_apply (x0 : Vec Ideal S256x2048 .f32) (x1 : Vec Ideal S2048x4096 .bf16) (x2 x3 : Vec Ideal S4096 .f32) (r : Fin 256) (f : Fin 4096) :
    out0_4 (F := Ideal) x0 x1 x2 x3 (ix2 r f)
      = Cert.Spec.quantRow (Cert.Spec.projRow (fun k => x0 (ix2 r k)) (fun k f' => x1 (ix2 k f')) (fun f' => x2 (ix1 f'))) (fun f' => x3 (ix1 f')) f := by
  unfold out0_4
  rw [View.canon_unit_zero (S := S256x4096) zeros2, View.ld_unit_zero (S := S256x2048) zeros2, View.ld_unit_zero (S := S2048x4096) zeros2,
    View.ld_unit_zero (S := S4096) zeros1, View.ld_unit_zero (S := S4096) zeros1]
  exact k0_pay3_apply x0 x1 x2 x3 r f

/-- The student region's scales buffer after the body, at row r. -/
theorem out0_5_apply (x0 : Vec Ideal S256x2048 .f32) (x1 : Vec Ideal S2048x4096 .bf16) (x2 x3 : Vec Ideal S4096 .f32) (r : Fin 256) :
    out0_5 (F := Ideal) x0 x1 x2 x3 (ix2 r (0 : Fin 1))
      = Cert.Spec.scaleRow (Cert.Spec.projRow (fun k => x0 (ix2 r k)) (fun k f' => x1 (ix2 k f')) (fun f' => x2 (ix1 f'))) (fun f' => x3 (ix1 f')) := by
  unfold out0_5
  rw [View.canon_unit_zero (S := S256x1) zeros2, View.ld_unit_zero (S := S256x2048) zeros2, View.ld_unit_zero (S := S2048x4096) zeros2,
    View.ld_unit_zero (S := S4096) zeros1, View.ld_unit_zero (S := S4096) zeros1]
  exact k0_pay2_apply x0 x1 x2 x3 r

open Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- What the quantised student array holds after the region: at (i, f) the quantised projected row i at f. -/
def sqArr (c : Dev nD) : S8192x4096.Idx → Elt Ideal .bf16 := fun i =>
  Cert.Spec.quantRow (Cert.Spec.projRow (fun k => V c main_v0 (ix2 (i 0) k)) (fun k f' => V c main_v2 (ix2 k f')) (fun f' => V c main_arg3 (ix1 f')))
    (fun f' => V c main_arg5 (ix1 f')) (i 1)

/-- What the student scales array holds after the region: at row i the scale of the projected row i. -/
def ssArr (c : Dev nD) : S8192x1.Idx → Elt Ideal .f32 := fun i =>
  Cert.Spec.scaleRow (Cert.Spec.projRow (fun k => V c main_v0 (ix2 (i 0) k)) (fun k f' => V c main_v2 (ix2 k f')) (fun f' => V c main_arg3 (ix1 f')))
    (fun f' => V c main_arg5 (ix1 f'))

/-- The block each window has at point t: the row arrays' blocks are block t of 256 rows, all columns; the matrix, the
    bias and the gain are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The rows the body reads at point t are rows 256·t + r of the student array. -/
theorem student_rows_eq (c : Dev nD) (t : Fin cfg0.N) (r : Fin 256) (i0 : Fin 8192) (h0 : i0.val = t.val * 256 + 1 * r.val) :
    (fun k : Fin 2048 => iblk0 V c 0 t (ix2 r k)) = (fun k => V c main_v0 (ix2 i0 k)) := funext fun k => by
  obtain ⟨e00, e01, e10, e11, e2, e3, e40, e41, e50, e51⟩ := idx_facts0 t
  show V c main_v0 (((cfg0.win 0).blk t).view.emb (ix2 r k)) = _
  refine congrArg (V c main_v0) ?_
  funext a; apply Fin.ext
  match a with
  | ⟨0, _⟩ => show win0_0.index t (0 : Fin 2) * 256 + 1 * r.val = i0.val; omega
  | ⟨1, _⟩ => show win0_0.index t (1 : Fin 2) * 2048 + 1 * k.val = k.val; omega

/-- The matrix the body reads at any point is the whole projection matrix. -/
theorem student_matrix_eq (c : Dev nD) (t : Fin cfg0.N) :
    (fun (k : Fin 2048) (f' : Fin 4096) => iblk0 V c 1 t (ix2 k f')) = (fun k f' => V c main_v2 (ix2 k f')) := funext fun k => funext fun f' => by
  obtain ⟨e00, e01, e10, e11, e2, e3, e40, e41, e50, e51⟩ := idx_facts0 t
  show V c main_v2 (((cfg0.win 1).blk t).view.emb (ix2 k f')) = _
  refine congrArg (V c main_v2) ?_
  funext a; apply Fin.ext
  match a with
  | ⟨0, _⟩ => show win0_1.index t (0 : Fin 2) * 2048 + 1 * k.val = k.val; omega
  | ⟨1, _⟩ => show win0_1.index t (1 : Fin 2) * 4096 + 1 * f'.val = f'.val; omega

/-- The bias and the gain the body reads at any point are whole. -/
theorem student_bias_eq (c : Dev nD) (t : Fin cfg0.N) :
    (fun f' : Fin 4096 => iblk0 V c 2 t (ix1 f')) = (fun f' => V c main_arg3 (ix1 f')) := funext fun f' => by
  obtain ⟨e00, e01, e10, e11, e2, e3, e40, e41, e50, e51⟩ := idx_facts0 t
  show V c main_arg3 (((cfg0.win 2).blk t).view.emb (ix1 f')) = _
  refine congrArg (V c main_arg3) ?_
  funext a; apply Fin.ext
  match a with
  | ⟨0, _⟩ => show win0_2.index t (0 : Fin 1) * 4096 + 1 * f'.val = f'.val; omega
theorem student_gain_eq (c : Dev nD) (t : Fin cfg0.N) :
    (fun f' : Fin 4096 => iblk0 V c 3 t (ix1 f')) = (fun f' => V c main_arg5 (ix1 f')) := funext fun f' => by
  obtain ⟨e00, e01, e10, e11, e2, e3, e40, e41, e50, e51⟩ := idx_facts0 t
  show V c main_arg5 (((cfg0.win 3).blk t).view.emb (ix1 f')) = _
  refine congrArg (V c main_arg5) ?_
  funext a; apply Fin.ext
  match a with
  | ⟨0, _⟩ => show win0_3.index t (0 : Fin 1) * 4096 + 1 * f'.val = f'.val; omega

/-- What point t writes back to the quantised array is block t of `sqArr`. -/
theorem sq_flushed_eq (c : Dev nD) (t : Fin cfg0.N) :
    (dat0 (F := Ideal) V c).flushed 4 t = ((cfg0.win 4).blk t).view.read (Elt Ideal) (sqArr V c) := by
  show (cfg0.win 4).cut (grid0.coords t) ((dat0 (F := Ideal) V c).after 4 t) = _
  rw [after0_4]
  funext j
  obtain ⟨r, f, rfl⟩ : ∃ (r : Fin 256) (f : Fin 4096), j = ix2 r f := ⟨j 0, j 1, eq_ix2 j⟩
  refine (out0_4_apply _ _ _ _ r f).trans ?_
  obtain ⟨e00, e01, e10, e11, e2, e3, e40, e41, e50, e51⟩ := idx_facts0 t
  have hf : f = ((((cfg0.win 4).blk t).view.emb (ix2 r f)) 1 : Fin 4096) :=
    Fin.ext (show f.val = win0_4.index t (1 : Fin 2) * 4096 + 1 * f.val by omega)
  rw [student_rows_eq V c t r ((((cfg0.win 4).blk t).view.emb (ix2 r f)) 0)
      (show win0_4.index t (0 : Fin 2) * 256 + 1 * r.val = t.val * 256 + 1 * r.val by omega),
    student_matrix_eq V c t, student_bias_eq V c t, student_gain_eq V c t]
  exact congrArg (Cert.Spec.quantRow _ _) hf

/-- What point t writes back to the scales array is block t of `ssArr`. -/
theorem ss_flushed_eq (c : Dev nD) (t : Fin cfg0.N) :
    (dat0 (F := Ideal) V c).flushed 5 t = ((cfg0.win 5).blk t).view.read (Elt Ideal) (ssArr V c) := by
  show (cfg0.win 5).cut (grid0.coords t) ((dat0 (F := Ideal) V c).after 5 t) = _
  rw [after0_5]
  funext j
  obtain ⟨r, rfl⟩ : ∃ r : Fin 256, j = ix2 r (0 : Fin 1) := ⟨j 0, by
    funext a
    match a with
    | ⟨0, _⟩ => rfl
    | ⟨1, _⟩ => exact Fin.ext (by have h1 : (j 1).val < 1 := (j 1).isLt; show (j 1).val = 0; omega)⟩
  refine (out0_5_apply _ _ _ _ r).trans ?_
  obtain ⟨e00, e01, e10, e11, e2, e3, e40, e41, e50, e51⟩ := idx_facts0 t
  rw [student_rows_eq V c t r ((((cfg0.win 5).blk t).view.emb (ix2 r (0 : Fin 1))) 0)
      (show win0_5.index t (0 : Fin 2) * 256 + 1 * r.val = t.val * 256 + 1 * r.val by omega),
    student_matrix_eq V c t, student_bias_eq V c t, student_gain_eq V c t]
  rfl

/-- An index of the quantised array is in point t's block iff each coordinate is in the block's range on its axis. -/
theorem sq_mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v3_0).slice (win0_4.rect t)).set ↔ _
  rw [View.set_slice_whole, Rect.mem_set_unit]
  exact Iff.rfl
theorem ss_mem_blk (t : Fin cfg0.N) (i : S8192x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v3_1).slice (win0_5.rect t)).set ↔ _
  rw [View.set_slice_whole, Rect.mem_set_unit]
  exact Iff.rfl

/-- Every row is in the block of the point row / 256. -/
theorem sq_cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = (i 0).val / 256 := ⟨⟨(i 0).val / 256, by show (i 0).val / 256 < 32; omega⟩, rfl⟩
  obtain ⟨e00, e01, e10, e11, e2, e3, e40, e41, e50, e51⟩ := idx_facts0 t
  refine ⟨t, flush0_4 t, ?_⟩
  rw [sq_mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega
theorem ss_cover (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ : ∃ t : Fin cfg0.N, t.val = (i 0).val / 256 := ⟨⟨(i 0).val / 256, by show (i 0).val / 256 < 32; omega⟩, rfl⟩
  obtain ⟨e00, e01, e10, e11, e2, e3, e40, e41, e50, e51⟩ := idx_facts0 t
  refine ⟨t, flush0_5 t, ?_⟩
  rw [ss_mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1 ≤ (i 1).val ∧ (i 1).val < win0_5.index t (1 : Fin 2) * 1 + 1; omega

/-- The quantised student array after the region: row by row the specification's quantised projected rows. -/
theorem sq_final (c : Dev nD) : (dat0 (F := Ideal) V c).arrAt 4 cfg0.N
    = (fun i : S8192x4096.Idx => Cert.Spec.quantRow (Cert.Spec.projRow (fun k => V c main_v0 (ix2 (i 0) k)) (fun k f' => V c main_v2 (ix2 k f')) (fun f' => V c main_arg3 (ix1 f')))
        (fun f' => V c main_arg5 (ix1 f')) (i 1)) :=
  (dat0 (F := Ideal) V c).arrAt_eq_of_cover 4 (sqArr V c) (fun t _ => sq_flushed_eq V c t) sq_cover

/-- The student scales array after the region: row by row the specification's scales of the projected rows. -/
theorem ss_final (c : Dev nD) : (dat0 (F := Ideal) V c).arrAt 5 cfg0.N
    = (fun i : S8192x1.Idx => Cert.Spec.scaleRow (Cert.Spec.projRow (fun k => V c main_v0 (ix2 (i 0) k)) (fun k f' => V c main_v2 (ix2 k f')) (fun f' => V c main_arg3 (ix1 f')))
        (fun f' => V c main_arg5 (ix1 f'))) :=
  (dat0 (F := Ideal) V c).arrAt_eq_of_cover 5 (ssArr V c) (fun t _ => ss_flushed_eq V c t) ss_cover

end Cert.KernelIdeal.Hand

end
-- ==== Proof.KernelIdeal.TeacherValue.lean ====
/-
  The values the teacher region writes, over the extended reals. A block of 256 teacher rows x (each of 4096
  numbers) with the gain g is RMS-normalised row by row, x f · rsqrt(mean of squares + ε) · g f; the row's scale is
  max(max_f |norm f| / 448, ε) and its quantised values are norm f / scale. Read at an index these are the
  specification's row functions of the block's row: the quantised block at (r, f) is quantRow of row r at f, the
  column of scales at row r is scaleRow of row r. The whole arrays after the region are the same functions of the
  whole teacher array's rows: the point that writes row i is i / 256, and it reads that same row.
-/
import proofs.«178535_j21251498181020_1_alg».proof.Proof.KernelIdeal.TeacherRegion
import proofs.«178535_j21251498181020_1_alg».proof.Proof.KernelIdeal.Keepdims
import proofs.«178535_j21251498181020_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-- The normalised, gained block of the teacher region, at (r, f): the specification's normalised row r at f. -/
theorem k1_pay1_apply (x0 : Vec Ideal S256x4096 .f32) (x1 : Vec Ideal S4096 .f32) (r : Fin 256) (f : Fin 4096) :
    k1_pay1 (F := Ideal) x0 x1 (ix2 r f)
      = Cert.Spec.normRow (fun f' => x0 (ix2 r f')) (fun f' => x1 (ix1 f')) f := by
  unfold k1_pay1 Cert.Spec.normRow
  simp only [shapeCast_self]
  rw [mulf_apply, mulf_apply, broadcastTo_a1_ab_apply, broadcastTo_1b_ab_apply, shapeCast_a_1a_apply]
  rw [rsqrt_apply, addf_apply, divf_apply, broadcast_apply, broadcast_apply, shapeCast_a_a1_apply]
  rw [rowSum_apply]
  rfl

/-- The column of scales, at row r: the specification's scale of row r. -/
theorem k1_pay2_apply (x0 : Vec Ideal S256x4096 .f32) (x1 : Vec Ideal S4096 .f32) (r : Fin 256) :
    k1_pay2 (F := Ideal) x0 x1 (ix2 r (0 : Fin 1))
      = Cert.Spec.scaleRow (fun f' => x0 (ix2 r f')) (fun f' => x1 (ix1 f')) := by
  unfold k1_pay2 Cert.Spec.scaleRow
  rw [maximumf_apply, divf_apply, broadcast_apply, broadcast_apply, shapeCast_a_a1_apply, rowMax_apply]
  simp only [absf_apply, k1_pay1_apply]
  rfl

/-- The quantised block, at (r, f): the specification's quantised row r at f. -/
theorem k1_pay3_apply (x0 : Vec Ideal S256x4096 .f32) (x1 : Vec Ideal S4096 .f32) (r : Fin 256) (f : Fin 4096) :
    k1_pay3 (F := Ideal) x0 x1 (ix2 r f)
      = Cert.Spec.quantRow (fun f' => x0 (ix2 r f')) (fun f' => x1 (ix1 f')) f := by
  unfold k1_pay3 Cert.Spec.quantRow
  rw [truncf_apply, divf_apply, broadcastTo_a1_ab_apply, k1_pay1_apply, k1_pay2_apply]

/-- The teacher region's quantised-rows buffer after the body, at (r, f). -/
theorem out1_2_apply (x0 : Vec Ideal S256x4096 .f32) (x1 : Vec Ideal S4096 .f32) (r : Fin 256) (f : Fin 4096) :
    out1_2 (F := Ideal) x0 x1 (ix2 r f)
      = Cert.Spec.quantRow (fun f' => x0 (ix2 r f')) (fun f' => x1 (ix1 f')) f := by
  unfold out1_2
  rw [View.canon_unit_zero (S := S256x4096) zeros2, View.ld_unit_zero (S := S256x4096) zeros2, View.ld_unit_zero (S := S4096) zeros1]
  exact k1_pay3_apply x0 x1 r f

/-- The teacher region's scales buffer after the body, at row r. -/
theorem out1_3_apply (x0 : Vec Ideal S256x4096 .f32) (x1 : Vec Ideal S4096 .f32) (r : Fin 256) :
    out1_3 (F := Ideal) x0 x1 (ix2 r (0 : Fin 1))
      = Cert.Spec.scaleRow (fun f' => x0 (ix2 r f')) (fun f' => x1 (ix1 f')) := by
  unfold out1_3
  rw [View.canon_unit_zero (S := S256x1) zeros2, View.ld_unit_zero (S := S256x4096) zeros2, View.ld_unit_zero (S := S4096) zeros1]
  exact k1_pay2_apply x0 x1 r

open Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- What the quantised teacher array holds after the region: at (i, f) the quantised row i of the teacher array at f. -/
def tqArr (c : Dev nD) : S8192x4096.Idx → Elt Ideal .bf16 := fun i =>
  Cert.Spec.quantRow (fun f' => V c main_v1 (ix2 (i 0) f')) (fun f' => V c main_arg4 (ix1 f')) (i 1)

/-- What the teacher scales array holds after the region: at row i the scale of row i of the teacher array. -/
def tsArr (c : Dev nD) : S8192x1.Idx → Elt Ideal .f32 := fun i =>
  Cert.Spec.scaleRow (fun f' => V c main_v1 (ix2 (i 0) f')) (fun f' => V c main_arg4 (ix1 f'))

/-- The block each window has at point t: the row arrays' blocks are block t of 256 rows, all columns; the gain is whole. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The rows the body reads at point t are rows 256·t + r of the teacher array, whichever output block names the row. -/
theorem teacher_rows_eq (c : Dev nD) (t : Fin cfg1.N) (r : Fin 256) (i0 : Fin 8192) (h0 : i0.val = t.val * 256 + 1 * r.val) :
    (fun f' : Fin 4096 => iblk1 V c 0 t (ix2 r f')) = (fun f' => V c main_v1 (ix2 i0 f')) := funext fun f' => by
  obtain ⟨e00, e01, e10, e20, e21, e30, e31⟩ := idx_facts1 t
  show V c main_v1 (((cfg1.win 0).blk t).view.emb (ix2 r f')) = _
  refine congrArg (V c main_v1) ?_
  funext a; apply Fin.ext
  match a with
  | ⟨0, _⟩ => show win1_0.index t (0 : Fin 2) * 256 + 1 * r.val = i0.val; omega
  | ⟨1, _⟩ => show win1_0.index t (1 : Fin 2) * 4096 + 1 * f'.val = f'.val; omega

/-- The gain the body reads at any point is the whole gain. -/
theorem teacher_gain_eq (c : Dev nD) (t : Fin cfg1.N) :
    (fun f' : Fin 4096 => iblk1 V c 1 t (ix1 f')) = (fun f' => V c main_arg4 (ix1 f')) := funext fun f' => by
  obtain ⟨e00, e01, e10, e20, e21, e30, e31⟩ := idx_facts1 t
  show V c main_arg4 (((cfg1.win 1).blk t).view.emb (ix1 f')) = _
  refine congrArg (V c main_arg4) ?_
  funext a; apply Fin.ext
  match a with
  | ⟨0, _⟩ => show win1_1.index t (0 : Fin 1) * 4096 + 1 * f'.val = f'.val; omega

/-- What point t writes back to the quantised array is block t of `tqArr`. -/
theorem tq_flushed_eq (c : Dev nD) (t : Fin cfg1.N) :
    (dat1 (F := Ideal) V c).flushed 2 t = ((cfg1.win 2).blk t).view.read (Elt Ideal) (tqArr V c) := by
  show (cfg1.win 2).cut (grid1.coords t) ((dat1 (F := Ideal) V c).after 2 t) = _
  rw [after1_2]
  funext j
  obtain ⟨r, f, rfl⟩ : ∃ (r : Fin 256) (f : Fin 4096), j = ix2 r f := ⟨j 0, j 1, eq_ix2 j⟩
  refine (out1_2_apply _ _ r f).trans ?_
  obtain ⟨e00, e01, e10, e20, e21, e30, e31⟩ := idx_facts1 t
  have hf : f = ((((cfg1.win 2).blk t).view.emb (ix2 r f)) 1 : Fin 4096) :=
    Fin.ext (show f.val = win1_2.index t (1 : Fin 2) * 4096 + 1 * f.val by omega)
  rw [teacher_rows_eq V c t r ((((cfg1.win 2).blk t).view.emb (ix2 r f)) 0)
      (show win1_2.index t (0 : Fin 2) * 256 + 1 * r.val = t.val * 256 + 1 * r.val by omega), teacher_gain_eq V c t]
  exact congrArg (Cert.Spec.quantRow _ _) hf

/-- What point t writes back to the scales array is block t of `tsArr`. -/
theorem ts_flushed_eq (c : Dev nD) (t : Fin cfg1.N) :
    (dat1 (F := Ideal) V c).flushed 3 t = ((cfg1.win 3).blk t).view.read (Elt Ideal) (tsArr V c) := by
  show (cfg1.win 3).cut (grid1.coords t) ((dat1 (F := Ideal) V c).after 3 t) = _
  rw [after1_3]
  funext j
  obtain ⟨r, rfl⟩ : ∃ r : Fin 256, j = ix2 r (0 : Fin 1) := ⟨j 0, by
    funext a
    match a with
    | ⟨0, _⟩ => rfl
    | ⟨1, _⟩ => exact Fin.ext (by have h1 : (j 1).val < 1 := (j 1).isLt; show (j 1).val = 0; omega)⟩
  refine (out1_3_apply _ _ r).trans ?_
  obtain ⟨e00, e01, e10, e20, e21, e30, e31⟩ := idx_facts1 t
  rw [teacher_rows_eq V c t r ((((cfg1.win 3).blk t).view.emb (ix2 r (0 : Fin 1))) 0)
      (show win1_3.index t (0 : Fin 2) * 256 + 1 * r.val = t.val * 256 + 1 * r.val by omega), teacher_gain_eq V c t]
  rfl

/-- An index of the quantised array is in point t's block iff each coordinate is in the block's range on its axis. -/
theorem tq_mem_blk (t : Fin cfg1.N) (i : S8192x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v4_0).slice (win1_2.rect t)).set ↔ _
  rw [View.set_slice_whole, Rect.mem_set_unit]
  exact Iff.rfl
theorem ts_mem_blk (t : Fin cfg1.N) (i : S8192x1.Idx) :
    i ∈ ((cfg1.win 3).blk t).view.set ↔ ∀ a : Fin 2, win1_3.index t a * S256x1.size a ≤ (i a).val ∧ (i a).val < win1_3.index t a * S256x1.size a + S256x1.size a := by
  show i ∈ ((View.whole main_v4_1).slice (win1_3.rect t)).set ↔ _
  rw [View.set_slice_whole, Rect.mem_set_unit]
  exact Iff.rfl

/-- Every row is in the block of the point row / 256. -/
theorem tq_cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = (i 0).val / 256 := ⟨⟨(i 0).val / 256, by show (i 0).val / 256 < 32; omega⟩, rfl⟩
  obtain ⟨e00, e01, e10, e20, e21, e30, e31⟩ := idx_facts1 t
  refine ⟨t, flush1_2 t, ?_⟩
  rw [tq_mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 4096 ≤ (i 1).val ∧ (i 1).val < win1_2.index t (1 : Fin 2) * 4096 + 4096; omega
theorem ts_cover (i : S8192x1.Idx) : ∃ t : Fin cfg1.N, (cfg1.win 3).flush t = true ∧ i ∈ ((cfg1.win 3).blk t).view.set := by
  have hi0 : (i 0).val < 8192 := (i 0).isLt
  have hi1 : (i 1).val < 1 := (i 1).isLt
  obtain ⟨t, ht⟩ : ∃ t : Fin cfg1.N, t.val = (i 0).val / 256 := ⟨⟨(i 0).val / 256, by show (i 0).val / 256 < 32; omega⟩, rfl⟩
  obtain ⟨e00, e01, e10, e20, e21, e30, e31⟩ := idx_facts1 t
  refine ⟨t, flush1_3 t, ?_⟩
  rw [ts_mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1 ≤ (i 1).val ∧ (i 1).val < win1_3.index t (1 : Fin 2) * 1 + 1; omega

/-- The quantised teacher array after the region: row by row the specification's quantised rows of the teacher array. -/
theorem tq_final (c : Dev nD) : (dat1 (F := Ideal) V c).arrAt 2 cfg1.N
    = (fun i : S8192x4096.Idx => Cert.Spec.quantRow (fun f' => V c main_v1 (ix2 (i 0) f')) (fun f' => V c main_arg4 (ix1 f')) (i 1)) :=
  (dat1 (F := Ideal) V c).arrAt_eq_of_cover 2 (tqArr V c) (fun t _ => tq_flushed_eq V c t) tq_cover

/-- The teacher scales array after the region: row by row the specification's scales of the teacher array's rows. -/
theorem ts_final (c : Dev nD) : (dat1 (F := Ideal) V c).arrAt 3 cfg1.N
    = (fun i : S8192x1.Idx => Cert.Spec.scaleRow (fun f' => V c main_v1 (ix2 (i 0) f')) (fun f' => V c main_arg4 (ix1 f'))) :=
  (dat1 (F := Ideal) V c).arrAt_eq_of_cover 3 (tsArr V c) (fun t _ => ts_flushed_eq V c t) ts_cover

end Cert.KernelIdeal.Hand

end
-- ==== Proof.KernelIdeal.SimValue.lean ====
/-
  The similarity region, third part: the value it leaves, at the ideal instance.
  The region walks 64 points (batch b, row tile mt, column tile nt). At each point it adds to a one-element scratch
  the sum, over a 512 × 512 tile of (student row i, teacher row j) pairs, of the inner product of the two quantised
  rows times both rows' scales; the scratch is zeroed at the first point and copied to the one-element output at the
  last. Over the extended reals addition is associative and commutative, so the 64 tile sums add up to the sum over
  the batch and all 2048 × 2048 row pairs: the specification's total.
-/
import proofs.«178535_j21251498181020_1_alg».proof.Proof.KernelIdeal.SimRegion
import proofs.«178535_j21251498181020_1_alg».proof.Proof.KernelIdeal.Keepdims
import proofs.«178535_j21251498181020_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce
import Mathlib.Algebra.BigOperators.Fin
import Mathlib.Algebra.BigOperators.Group.Finset.Basic
import Mathlib.Logic.Equiv.Fin.Basic

set_option maxRecDepth 16384

noncomputable section

namespace Cert.KernelIdeal.Hand.Sim

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen
open scoped BigOperators

variable {F : FTy → Type} [FloatOps F]

/-! ## What each case's run leaves, as the accumulation step of its loads -/

theorem sim_hz2 : (![0, 0] : Fin 2 → Nat) = fun _ => 0 := funext fun a => by fin_cases a <;> rfl
theorem sim_hz3 : (![0, 0, 0] : Fin 3 → Nat) = fun _ => 0 := funext fun a => by fin_cases a <;> rfl

/-- A middle point leaves in the scratch the accumulation step applied to the four blocks and what the scratch held. -/
theorem sout2_B_eq (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : ¬cond2_1 i) (x0 : Vec F S1x512x4096 .bf16) (x1 : Vec F S1x512x1 .f32) (x2 : Vec F S1x512x4096 .bf16) (x3 : Vec F S1x1x512 .f32) (xs : Vec F S1x1 .f32) :
    sout2_B c i arg3 harg3 arg4 harg4 arg5 harg5 arg6 harg6 arg7 harg7 arg8 harg8 hc0 hc1 x0 x1 x2 x3 xs = k2_pay1 (k2_pay3 x0 x2 x1 x3 xs) := by
  unfold sout2_B
  rw [View.read_writes_eq_canon _ _ _ (scover2_B c i arg3 harg3 arg4 harg4 arg5 harg5 arg6 harg6 arg7 harg7 arg8 harg8 hc0 hc1 x0 x1 x2 x3 xs)]
  unfold kernelRun2_B
  dsimp only
  rw [View.canon_unit_zero sim_hz2]
  simp only [View.readAt_eq_ld, harg3.read_unread, harg4.read_unread, harg5.read_unread, harg6.read_unread, harg8.read_unread,
    View.ld_unit_zero (S := S1x512x4096) sim_hz3, View.ld_unit_zero (S := S1x512x1) sim_hz3, View.ld_unit_zero (S := S1x1x512) sim_hz3, View.ld_unit_zero (S := S1x1) sim_hz2]

/-- The first point leaves the accumulation step applied to the four blocks and the zero it has just stored. -/
theorem sout2_A_eq (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : cond2_0 i) (hc1 : ¬cond2_1 i) (x0 : Vec F S1x512x4096 .bf16) (x1 : Vec F S1x512x1 .f32) (x2 : Vec F S1x512x4096 .bf16) (x3 : Vec F S1x1x512 .f32) :
    sout2_A c i arg3 harg3 arg4 harg4 arg5 harg5 arg6 harg6 arg7 harg7 arg8 harg8 hc0 hc1 x0 x1 x2 x3 = k2_pay1 (k2_pay3 x0 x2 x1 x3 (k2_pay2 (F := F))) := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero (S := S1x1) sim_hz2]
  simp only [View.readAt_eq_ld, harg3.read_unread, harg4.read_unread, harg5.read_unread, harg6.read_unread, harg8.read_unread,
    View.ld_unit_zero (S := S1x512x4096) sim_hz3, View.ld_unit_zero (S := S1x512x1) sim_hz3, View.ld_unit_zero (S := S1x1x512) sim_hz3, View.ld_unit_zero (S := S1x1) sim_hz2, View.readCov_unit_zero (S := S1x1) _ sim_hz2]

/-- The last point leaves in the scratch the same accumulation step. -/
theorem sout2_C_eq (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) :
    sout2_C c i arg3 harg3 arg4 harg4 arg5 harg5 arg6 harg6 arg7 harg7 arg8 harg8 hc0 hc1 x0 x1 x2 x3 xs = k2_pay1 (k2_pay3 x0 x2 x1 x3 xs) := by
  unfold sout2_C
  rw [View.read_writes_eq_canon _ _ _ (scover2_C c i arg3 harg3 arg4 harg4 arg5 harg5 arg6 harg6 arg7 harg7 arg8 harg8 hc0 hc1 x0 x1 x2 x3 xs)]
  unfold kernelRun2_C
  dsimp only
  sl_unfold_words
  dsimp only
  rw [View.canon_unit_zero sim_hz2]
  simp only [View.readAt_eq_ld, harg3.read_unread, harg4.read_unread, harg5.read_unread, harg6.read_unread, harg8.read_unread,
    View.ld_unit_zero (S := S1x512x4096) sim_hz3, View.ld_unit_zero (S := S1x512x1) sim_hz3, View.ld_unit_zero (S := S1x1x512) sim_hz3, View.ld_unit_zero (S := S1x1) sim_hz2]

/-- The last point copies the scratch to the output: the output buffer holds the same value. -/
theorem out2_C_4_eq (c : Dev nD) (i : grid2.Coords) (arg3 : Memref sig .tc .vmem S1x512x4096 .bf16) (harg3 : arg3.IsWhole) (arg4 : Memref sig .tc .vmem S1x512x1 .f32) (harg4 : arg4.IsWhole) (arg5 : Memref sig .tc .vmem S1x512x4096 .bf16) (harg5 : arg5.IsWhole) (arg6 : Memref sig .tc .vmem S1x1x512 .f32) (harg6 : arg6.IsWhole) (arg7 : Memref sig .tc .vmem S1x1 .f32) (harg7 : arg7.IsWhole) (arg8 : Memref sig .tc .vmem S1x1 .f32) (harg8 : arg8.IsWhole) (hc0 : ¬cond2_0 i) (hc1 : cond2_1 i) (x0 : Vec F S1x512x4096 .bf16) (x1 : Vec F S1x512x1 .f32) (x2 : Vec F S1x512x4096 .bf16) (x3 : Vec F S1x1x512 .f32) (xs : Vec F S1x1 .f32) :
    out2_C_4 c i arg3 harg3 arg4 harg4 arg5 harg5 arg6 harg6 arg7 harg7 arg8 harg8 hc0 hc1 x0 x1 x2 x3 xs = k2_pay1 (k2_pay3 x0 x2 x1 x3 xs) := by
  unfold out2_C_4
  rw [View.read_writes_eq_canon _ _ _ (cover2_C_4 c i arg3 harg3 arg4 harg4 arg5 harg5 arg6 harg6 arg7 harg7 arg8 harg8 hc0 hc1 x0 x1 x2 x3 xs)]
  unfold kernelRun2_C
  dsimp only
  sl_unfold_words
  dsimp only
  rw [View.canon_unit_zero sim_hz2]
  simp only [View.readAt_eq_ld, harg3.read_unread, harg4.read_unread, harg5.read_unread, harg6.read_unread, harg8.read_unread,
    View.ld_unit_zero (S := S1x512x4096) sim_hz3, View.ld_unit_zero (S := S1x512x1) sim_hz3, View.ld_unit_zero (S := S1x1x512) sim_hz3, View.ld_unit_zero (S := S1x1) sim_hz2, View.readCov_unit_zero (S := S1x1) _ sim_hz2]

/-! ## The accumulation step at the ideal values, read at its one index -/

/-- Reducing an `[a, b]` matrix along its first axis: the index inserted over column `q` at coordinate `k` is `(k, q)`. -/
theorem sim_lift_col_eq {a b : ℕ} (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- The product of two `[512, 4096]` matrices contracted along their rows' common axis, from a zero accumulator:
    entry `(i, j)` is the inner product of row `i` of the first with row `j` of the second. -/
theorem tile_lhs0 (o : S512x512.Idx) (q : dot_S512x4096_S512x4096_S512x512_1_1_0_0_n_n.contr.Idx) :
    (dot_S512x4096_S512x4096_S512x512_1_1_0_0_n_n.lhsIdx o q 0).val = (o 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem tile_lhs1 (o : S512x512.Idx) (q : dot_S512x4096_S512x4096_S512x512_1_1_0_0_n_n.contr.Idx) :
    (dot_S512x4096_S512x4096_S512x512_1_1_0_0_n_n.lhsIdx o q 1).val = (q ⟨0, by decide⟩).val :=
  dot_S512x4096_S512x4096_S512x512_1_1_0_0_n_n.lhsIdx_val_of_single rfl o q
theorem tile_rhs0 (o : S512x512.Idx) (q : dot_S512x4096_S512x4096_S512x512_1_1_0_0_n_n.contr.Idx) :
    (dot_S512x4096_S512x4096_S512x512_1_1_0_0_n_n.rhsIdx o q 0).val = (o 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem tile_rhs1 (o : S512x512.Idx) (q : dot_S512x4096_S512x4096_S512x512_1_1_0_0_n_n.contr.Idx) :
    (dot_S512x4096_S512x4096_S512x512_1_1_0_0_n_n.rhsIdx o q 1).val = (q ⟨0, by decide⟩).val :=
  dot_S512x4096_S512x4096_S512x512_1_1_0_0_n_n.rhsIdx_val_of_single rfl o q

theorem tile_apply (y0 y2 : FVec Ideal S512x4096 .bf16) (i j : Fin 512) :
    matmul dot_S512x4096_S512x4096_S512x512_1_1_0_0_n_n none y0 y2 (constant (F := Ideal) S512x512 .f32 0x00000000#32) (ix2 i j)
      = ∑ d : Fin 4096, y0 (ix2 i d) * y2 (ix2 j d) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 i j) ((contrEquiv1 dot_S512x4096_S512x4096_S512x512_1_1_0_0_n_n 4096 rfl rfl).symm k) = ix2 i k :=
    funext fun a => Fin.ext (by
      match a with
      | ⟨0, _⟩ => exact tile_lhs0 _ _
      | ⟨1, _⟩ => exact (tile_lhs1 _ _).trans hk)
  have er : dot_S512x4096_S512x4096_S512x512_1_1_0_0_n_n.rhsIdx (ix2 i j) ((contrEquiv1 dot_S512x4096_S512x4096_S512x512_1_1_0_0_n_n 4096 rfl rfl).symm k) = ix2 j k :=
    funext fun a => Fin.ext (by
      match a with
      | ⟨0, _⟩ => exact tile_rhs0 _ _
      | ⟨1, _⟩ => exact (tile_rhs1 _ _).trans hk)
  rw [el, er]

/-- A `[512, 512]` matrix summed along its rows and then along the resulting column: the sum of all its entries. -/
theorem sumAll_apply (W : FVec Ideal S512x512 .f32) (hφ : FKind.Formats FTy.f32)
    (hacc1 : (0x00000000#32 : BitVec 32) = 0x00000000#32) (hacc0 : (0x00000000#32 : BitVec 32) = 0x00000000#32) :
    shapeCast S1x1 (multiReduction (F := Ideal) .add [0] S1
        (shapeCast S512x1 (multiReduction (F := Ideal) .add [1] S512 W 0x00000000#32 reduces_S512x512_S512 hφ hacc1) shapeCasts_S512_S512x1)
        0x00000000#32 reduces_S512x1_S1 hφ hacc0) shapeCasts_S1_S1x1 (ix2 (0 : Fin 1) (0 : Fin 1))
      = ∑ i : Fin 512, ∑ j : Fin 512, W (ix2 i j) := by
  refine (shapeCast_a_a1_apply _ shapeCasts_S1_S1x1 (0 : Fin 1) (0 : Fin 1)).trans ?_
  refine (Ideal.multiReduction_add_single _ 0x00000000#32 reduces_S512x1_S1 hφ hacc0 (ix1 (0 : Fin 1))).trans ?_
  refine Finset.sum_congr rfl fun i _ => ?_
  refine (congrArg _ (sim_lift_col_eq reduces_S512x1_S1 (0 : Fin 1) i)).trans ?_
  refine (shapeCast_a_a1_apply _ shapeCasts_S512_S512x1 i (0 : Fin 1)).trans ?_
  refine (Ideal.multiReduction_add_single W 0x00000000#32 reduces_S512x512_S512 hφ hacc1 (ix1 i)).trans ?_
  exact Finset.sum_congr rfl fun j _ => congrArg W (lift_row_eq reduces_S512x512_S512 i j)

/-- The accumulation step at its one index: what the scratch held plus, over the 512 × 512 tile, the inner product
    of student row `i` and teacher row `j` times the two rows' scales. -/
theorem pay3_apply (x0 x2 : Vec Ideal S1x512x4096 .bf16) (x1 : Vec Ideal S1x512x1 .f32) (x3 : Vec Ideal S1x1x512 .f32) (xs : Vec Ideal S1x1 .f32) :
    k2_pay3 (F := Ideal) x0 x2 x1 x3 xs (ix2 (0 : Fin 1) (0 : Fin 1))
      = xs (ix2 (0 : Fin 1) (0 : Fin 1)) + ∑ i : Fin 512, ∑ j : Fin 512,
          (∑ d : Fin 4096, x0 (ix3 (0 : Fin 1) i d) * x2 (ix3 (0 : Fin 1) j d)) * x1 (ix3 (0 : Fin 1) i (0 : Fin 1)) * x3 (ix3 (0 : Fin 1) (0 : Fin 1) j) := by
  unfold k2_pay3
  dsimp only
  refine (addf_apply _ _ _).trans (congrArg (fun z => xs (ix2 (0 : Fin 1) (0 : Fin 1)) + z) ?_)
  refine (sumAll_apply _ _ _ _).trans ?_
  refine Finset.sum_congr rfl fun i _ => Finset.sum_congr rfl fun j _ => ?_
  refine (mulf_apply _ _ _).trans ?_
  refine congrArg₂ (· * ·) ((mulf_apply _ _ _).trans (congrArg₂ (· * ·) ?_ ?_)) ?_
  · refine (tile_apply _ _ i j).trans (Finset.sum_congr rfl fun d _ => ?_)
    exact congrArg₂ (· * ·) (shapeCast_1ab_ab_apply x0 shapeCasts_S1x512x4096_S512x4096 i d) (shapeCast_1ab_ab_apply x2 shapeCasts_S1x512x4096_S512x4096 j d)
  · exact (broadcastTo_a1_ab_apply _ broadcasts_S512x1_S512x512 i j).trans (shapeCast_1ab_ab_apply x1 shapeCasts_S1x512x1_S512x1 i (0 : Fin 1))
  · exact (broadcastTo_1b_ab_apply _ broadcasts_S1x512_S512x512 i j).trans (shapeCast_1ab_ab_apply x3 shapeCasts_S1x1x512_S1x512 (0 : Fin 1) j)

/-- The zero the first point stores, at its one index. -/
theorem pay2_apply : k2_pay2 (F := Ideal) (ix2 (0 : Fin 1) (0 : Fin 1)) = 0 := by
  unfold k2_pay2
  rw [shapeCast_self]
  exact Ideal.ofBits_zero_f32

/-- The cast before the store is the identity. -/
theorem pay1_eq {F : FTy → Type} [FloatOps F] (v : FVec F S1x1 .f32) : k2_pay1 v = v := by
  unfold k2_pay1
  exact shapeCast_self v _

/-! ## The four input blocks at a point, read off their arrays -/

section Blocks

variable (V : (c : Dev nD) → (b : Ref sig .tc) → Buf (Elt F) ((c : Thread nD τ).loc b))

/-- The quantised student rows and the block of them a point reads. -/
abbrev sArr (c : Dev nD) : Vec F S4x2048x4096 .bf16 := V c main_v5
abbrev sBlk (c : Dev nD) (t : Fin cfg2.N) : Vec F S1x512x4096 .bf16 := iblk2 V c 0 t
/-- The student scales and their block. -/
abbrev ssArr (c : Dev nD) : Vec F S4x2048x1 .f32 := V c main_v6
abbrev ssBlk (c : Dev nD) (t : Fin cfg2.N) : Vec F S1x512x1 .f32 := iblk2 V c 1 t
/-- The quantised teacher rows and their block. -/
abbrev tArr (c : Dev nD) : Vec F S4x2048x4096 .bf16 := V c main_v7
abbrev tBlk (c : Dev nD) (t : Fin cfg2.N) : Vec F S1x512x4096 .bf16 := iblk2 V c 2 t
/-- The teacher scales (one row per batch entry) and their block. -/
abbrev tsArr (c : Dev nD) : Vec F S4x1x2048 .f32 := V c main_v9
abbrev tsBlk (c : Dev nD) (t : Fin cfg2.N) : Vec F S1x1x512 .f32 := iblk2 V c 3 t

/-- Point t = 16 b + 4 mt + nt reads student block (b, mt, 0) and teacher block (b, nt, 0); the scales likewise. -/
theorem index2_0 : ∀ t : Fin grid2.N, win2_0.index t 0 = t.val / 16 ∧ win2_0.index t 1 = t.val / 4 % 4 ∧ win2_0.index t 2 = 0 := by decide +kernel
theorem index2_1 : ∀ t : Fin grid2.N, win2_1.index t 0 = t.val / 16 ∧ win2_1.index t 1 = t.val / 4 % 4 ∧ win2_1.index t 2 = 0 := by decide +kernel
theorem index2_2 : ∀ t : Fin grid2.N, win2_2.index t 0 = t.val / 16 ∧ win2_2.index t 1 = t.val % 4 ∧ win2_2.index t 2 = 0 := by decide +kernel
theorem index2_3 : ∀ t : Fin grid2.N, win2_3.index t 0 = t.val / 16 ∧ win2_3.index t 1 = 0 ∧ win2_3.index t 2 = t.val % 4 := by decide +kernel

theorem sBlk_apply (c : Dev nD) (t : Fin cfg2.N) (i : Fin 512) (d : Fin 4096) :
    sBlk V c t (ix3 (0 : Fin 1) i d)
      = sArr V c (ix3 (⟨t.val / 16 % 4, Nat.mod_lt _ (by decide)⟩ : Fin 4) (⟨512 * (t.val / 4 % 4) + i.val, by omega⟩ : Fin 2048) d) := by
  have hN : t.val < 64 := lt_of_lt_of_eq t.isLt (show cfg2.N = 64 from N_2)
  show iblk2 V c 0 t _ = _
  unfold iblk2
  rw [View.read_apply]
  show V c main_v5 _ = V c main_v5 _
  congr 1
  funext a
  apply Fin.ext
  match a with
  | ⟨0, _⟩ => show win2_0.index t 0 * 1 + 1 * 0 = t.val / 16 % 4; rw [(index2_0 t).1]; omega
  | ⟨1, _⟩ => show win2_0.index t 1 * 512 + 1 * i.val = 512 * (t.val / 4 % 4) + i.val; rw [(index2_0 t).2.1]; omega
  | ⟨2, _⟩ => show win2_0.index t 2 * 4096 + 1 * d.val = d.val; rw [(index2_0 t).2.2]; omega

theorem ssBlk_apply (c : Dev nD) (t : Fin cfg2.N) (i : Fin 512) :
    ssBlk V c t (ix3 (0 : Fin 1) i (0 : Fin 1))
      = ssArr V c (ix3 (⟨t.val / 16 % 4, Nat.mod_lt _ (by decide)⟩ : Fin 4) (⟨512 * (t.val / 4 % 4) + i.val, by omega⟩ : Fin 2048) (0 : Fin 1)) := by
  have hN : t.val < 64 := lt_of_lt_of_eq t.isLt (show cfg2.N = 64 from N_2)
  show iblk2 V c 1 t _ = _
  unfold iblk2
  rw [View.read_apply]
  show V c main_v6 _ = V c main_v6 _
  congr 1
  funext a
  apply Fin.ext
  match a with
  | ⟨0, _⟩ => show win2_1.index t 0 * 1 + 1 * 0 = t.val / 16 % 4; rw [(index2_1 t).1]; omega
  | ⟨1, _⟩ => show win2_1.index t 1 * 512 + 1 * i.val = 512 * (t.val / 4 % 4) + i.val; rw [(index2_1 t).2.1]; omega
  | ⟨2, _⟩ => show win2_1.index t 2 * 1 + 1 * 0 = 0; rw [(index2_1 t).2.2]

theorem tBlk_apply (c : Dev nD) (t : Fin cfg2.N) (j : Fin 512) (d : Fin 4096) :
    tBlk V c t (ix3 (0 : Fin 1) j d)
      = tArr V c (ix3 (⟨t.val / 16 % 4, Nat.mod_lt _ (by decide)⟩ : Fin 4) (⟨512 * (t.val % 4) + j.val, by omega⟩ : Fin 2048) d) := by
  have hN : t.val < 64 := lt_of_lt_of_eq t.isLt (show cfg2.N = 64 from N_2)
  show iblk2 V c 2 t _ = _
  unfold iblk2
  rw [View.read_apply]
  show V c main_v7 _ = V c main_v7 _
  congr 1
  funext a
  apply Fin.ext
  match a with
  | ⟨0, _⟩ => show win2_2.index t 0 * 1 + 1 * 0 = t.val / 16 % 4; rw [(index2_2 t).1]; omega
  | ⟨1, _⟩ => show win2_2.index t 1 * 512 + 1 * j.val = 512 * (t.val % 4) + j.val; rw [(index2_2 t).2.1]; omega
  | ⟨2, _⟩ => show win2_2.index t 2 * 4096 + 1 * d.val = d.val; rw [(index2_2 t).2.2]; omega

theorem tsBlk_apply (c : Dev nD) (t : Fin cfg2.N) (j : Fin 512) :
    tsBlk V c t (ix3 (0 : Fin 1) (0 : Fin 1) j)
      = tsArr V c (ix3 (⟨t.val / 16 % 4, Nat.mod_lt _ (by decide)⟩ : Fin 4) (0 : Fin 1) (⟨512 * (t.val % 4) + j.val, by omega⟩ : Fin 2048)) := by
  have hN : t.val < 64 := lt_of_lt_of_eq t.isLt (show cfg2.N = 64 from N_2)
  show iblk2 V c 3 t _ = _
  unfold iblk2
  rw [View.read_apply]
  show V c main_v9 _ = V c main_v9 _
  congr 1
  funext a
  apply Fin.ext
  match a with
  | ⟨0, _⟩ => show win2_3.index t 0 * 1 + 1 * 0 = t.val / 16 % 4; rw [(index2_3 t).1]; omega
  | ⟨1, _⟩ => show win2_3.index t 1 * 1 + 1 * 0 = 0; rw [(index2_3 t).2.1]
  | ⟨2, _⟩ => show win2_3.index t 2 * 512 + 1 * j.val = 512 * (t.val % 4) + j.val; rw [(index2_3 t).2.2]; omega

end Blocks

/-! ## The running sum -/

/-- One (student row, teacher row) pair's term: the two quantised rows' inner product times both scales. -/
def pairTerm (sq tq : Fin 4 → Fin 2048 → Fin 4096 → EReal) (ss ts : Fin 4 → Fin 2048 → EReal) (b : Fin 4) (I J : Fin 2048) : EReal :=
  (∑ d : Fin 4096, sq b I d * tq b J d) * ss b I * ts b J

/-- The sum over tile number n = 16 b + 4 mt + nt: batch entry b, student rows 512 mt + i, teacher rows 512 nt + j. -/
def tileSum (sq tq : Fin 4 → Fin 2048 → Fin 4096 → EReal) (ss ts : Fin 4 → Fin 2048 → EReal) (n : ℕ) : EReal :=
  ∑ i : Fin 512, ∑ j : Fin 512,
    pairTerm sq tq ss ts (⟨n / 16 % 4, Nat.mod_lt _ (by decide)⟩ : Fin 4) (⟨512 * (n / 4 % 4) + i.val, by omega⟩ : Fin 2048)
      (⟨512 * (n % 4) + j.val, by omega⟩ : Fin 2048)

section Value

variable (V : (c : Dev nD) → (b : Ref sig .tc) → Buf (Elt Ideal) ((c : Thread nD τ).loc b)) (c : Dev nD)

/-- The four arrays as functions of (batch entry, row, lane) and (batch entry, row). -/
abbrev sqOf : Fin 4 → Fin 2048 → Fin 4096 → EReal := fun b i d => sArr V c (ix3 b i d)
abbrev tqOf : Fin 4 → Fin 2048 → Fin 4096 → EReal := fun b j d => tArr V c (ix3 b j d)
abbrev ssOf : Fin 4 → Fin 2048 → EReal := fun b i => ssArr V c (ix3 b i (0 : Fin 1))
abbrev tsOf : Fin 4 → Fin 2048 → EReal := fun b j => tsArr V c (ix3 b (0 : Fin 1) j)

/-- The accumulation step at point t over a scratch holding xs: xs plus tile t's sum. -/
theorem step_apply (t : Fin cfg2.N) (xs : Vec Ideal S1x1 .f32) :
    k2_pay1 (k2_pay3 (F := Ideal) (sBlk V c t) (tBlk V c t) (ssBlk V c t) (tsBlk V c t) xs) (ix2 (0 : Fin 1) (0 : Fin 1))
      = xs (ix2 (0 : Fin 1) (0 : Fin 1)) + tileSum (sqOf V c) (tqOf V c) (ssOf V c) (tsOf V c) t.val := by
  refine (congrFun (pay1_eq _) _).trans ?_
  refine (pay3_apply (sBlk V c t) (tBlk V c t) (ssBlk V c t) (tsBlk V c t) xs).trans ?_
  refine congrArg (fun z => xs (ix2 (0 : Fin 1) (0 : Fin 1)) + z) ?_
  unfold tileSum
  refine Finset.sum_congr rfl fun i _ => Finset.sum_congr rfl fun j _ => ?_
  unfold pairTerm
  refine congrArg₂ (· * ·) (congrArg₂ (· * ·) (Finset.sum_congr rfl fun d _ => ?_) ?_) ?_
  · exact congrArg₂ (· * ·) (sBlk_apply V c t i d) (tBlk_apply V c t j d)
  · exact ssBlk_apply V c t i
  · exact tsBlk_apply V c t j

/-- After point n the scratch holds the sum of tiles 0 … n. -/
theorem scratch_eq : ∀ (n : ℕ) (hn : n < cfg2.N),
    (outsAt2 V c n hn).2 (ix2 (0 : Fin 1) (0 : Fin 1))
      = ∑ t ∈ Finset.range (n + 1), tileSum (sqOf V c) (tqOf V c) (ssOf V c) (tsOf V c) t
  | 0, hn => by
    rw [Finset.sum_range_one, outsAt2_A V c ⟨0, hn⟩ rfl (show ¬(0 : ℕ) = 63 by decide)]
    dsimp only
    refine (congrFun (sout2_A_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) _ _
      (sBlk V c ⟨0, hn⟩) (ssBlk V c ⟨0, hn⟩) (tBlk V c ⟨0, hn⟩) (tsBlk V c ⟨0, hn⟩)) (ix2 (0 : Fin 1) (0 : Fin 1))).trans ?_
    refine (step_apply V c ⟨0, hn⟩ (k2_pay2 (F := Ideal))).trans ?_
    rw [pay2_apply, zero_add]
  | n + 1, hn => by
    have hN : cfg2.N = 64 := N_2
    rw [Finset.sum_range_succ]
    by_cases h1 : n + 1 = 63
    · rw [outsAt2_C V c ⟨n + 1, hn⟩ (Nat.succ_ne_zero n) h1]
      dsimp only
      refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) _ _
        (sBlk V c ⟨n + 1, hn⟩) (ssBlk V c ⟨n + 1, hn⟩) (tBlk V c ⟨n + 1, hn⟩) (tsBlk V c ⟨n + 1, hn⟩) (outsAt2 V c n (Nat.lt_of_succ_lt hn)).2) (ix2 (0 : Fin 1) (0 : Fin 1))).trans ?_
      refine (step_apply V c ⟨n + 1, hn⟩ (outsAt2 V c n (Nat.lt_of_succ_lt hn)).2).trans ?_
      exact congrArg (fun z => z + tileSum (sqOf V c) (tqOf V c) (ssOf V c) (tsOf V c) (n + 1)) (scratch_eq n (Nat.lt_of_succ_lt hn))
    · rw [outsAt2_B V c ⟨n + 1, hn⟩ (Nat.succ_ne_zero n) h1]
      dsimp only
      refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) _ _
        (sBlk V c ⟨n + 1, hn⟩) (ssBlk V c ⟨n + 1, hn⟩) (tBlk V c ⟨n + 1, hn⟩) (tsBlk V c ⟨n + 1, hn⟩) (outsAt2 V c n (Nat.lt_of_succ_lt hn)).2) (ix2 (0 : Fin 1) (0 : Fin 1))).trans ?_
      refine (step_apply V c ⟨n + 1, hn⟩ (outsAt2 V c n (Nat.lt_of_succ_lt hn)).2).trans ?_
      exact congrArg (fun z => z + tileSum (sqOf V c) (tqOf V c) (ssOf V c) (tsOf V c) (n + 1)) (scratch_eq n (Nat.lt_of_succ_lt hn))

end Value

/-! ## The 64 tiles make up the whole sum -/

/-- Row I of 2048 is row i of tile row m: I = 512 m + i. -/
def rowEquiv : Fin 4 × Fin 512 ≃ Fin 2048 where
  toFun p := ⟨512 * p.1.val + p.2.val, by have := p.1.isLt; have := p.2.isLt; omega⟩
  invFun I := (⟨I.val / 512, by have := I.isLt; omega⟩, ⟨I.val % 512, Nat.mod_lt _ (by decide)⟩)
  left_inv p := by
    obtain ⟨⟨m, hm⟩, ⟨i, hi⟩⟩ := p
    refine Prod.ext (Fin.ext ?_) (Fin.ext ?_)
    · show (512 * m + i) / 512 = m; omega
    · show (512 * m + i) % 512 = i; omega
  right_inv I := Fin.ext (by show 512 * (I.val / 512) + I.val % 512 = I.val; omega)

/-- Point t of 64 is (batch entry b, tile row m, tile column n): t = 16 b + 4 m + n. -/
def pointEquiv : Fin 4 × Fin 4 × Fin 4 ≃ Fin 64 where
  toFun p := ⟨16 * p.1.val + 4 * p.2.1.val + p.2.2.val, by have := p.1.isLt; have := p.2.1.isLt; have := p.2.2.isLt; omega⟩
  invFun t := (⟨t.val / 16, by have := t.isLt; omega⟩, ⟨t.val / 4 % 4, Nat.mod_lt _ (by decide)⟩, ⟨t.val % 4, Nat.mod_lt _ (by decide)⟩)
  left_inv p := by
    obtain ⟨⟨b, hb⟩, ⟨m, hm⟩, ⟨n, hn⟩⟩ := p
    refine Prod.ext (Fin.ext ?_) (Prod.ext (Fin.ext ?_) (Fin.ext ?_))
    · show (16 * b + 4 * m + n) / 16 = b; omega
    · show (16 * b + 4 * m + n) / 4 % 4 = m; omega
    · show (16 * b + 4 * m + n) % 4 = n; omega
  right_inv t := Fin.ext (by show 16 * (t.val / 16) + 4 * (t.val / 4 % 4) + t.val % 4 = t.val; omega)

theorem sum_rows (G : Fin 2048 → EReal) :
    ∑ I : Fin 2048, G I = ∑ m : Fin 4, ∑ i : Fin 512, G (⟨512 * m.val + i.val, by have := m.isLt; have := i.isLt; omega⟩ : Fin 2048) := by
  rw [← Equiv.sum_comp rowEquiv G, Fintype.sum_prod_type]
  rfl

theorem sum_points (G : ℕ → EReal) :
    ∑ t ∈ Finset.range 64, G t = ∑ b : Fin 4, ∑ m : Fin 4, ∑ n : Fin 4, G (16 * b.val + 4 * m.val + n.val) := by
  rw [← Fin.sum_univ_eq_sum_range, ← Equiv.sum_comp pointEquiv (fun t : Fin 64 => G t.val), Fintype.sum_prod_type]
  refine Finset.sum_congr rfl fun b _ => ?_
  rw [Fintype.sum_prod_type]
  rfl

/-- Tile 16 b + 4 m + n sums the pairs (row 512 m + i, row 512 n + j) of batch entry b. -/
theorem tileSum_point (sq tq : Fin 4 → Fin 2048 → Fin 4096 → EReal) (ss ts : Fin 4 → Fin 2048 → EReal) (b m n : Fin 4) :
    tileSum sq tq ss ts (16 * b.val + 4 * m.val + n.val)
      = ∑ i : Fin 512, ∑ j : Fin 512, pairTerm sq tq ss ts b
          (⟨512 * m.val + i.val, by have := m.isLt; have := i.isLt; omega⟩ : Fin 2048)
          (⟨512 * n.val + j.val, by have := n.isLt; have := j.isLt; omega⟩ : Fin 2048) := by
  have hb := b.isLt; have hm := m.isLt; have hn := n.isLt
  unfold tileSum
  refine Finset.sum_congr rfl fun i _ => Finset.sum_congr rfl fun j _ => ?_
  have e0 : (⟨(16 * b.val + 4 * m.val + n.val) / 16 % 4, Nat.mod_lt _ (by decide)⟩ : Fin 4) = b := Fin.ext (by show (16 * b.val + 4 * m.val + n.val) / 16 % 4 = b.val; omega)
  have e1 : (⟨512 * ((16 * b.val + 4 * m.val + n.val) / 4 % 4) + i.val, by have := i.isLt; omega⟩ : Fin 2048) = ⟨512 * m.val + i.val, by have := i.isLt; omega⟩ :=
    Fin.ext (by show 512 * ((16 * b.val + 4 * m.val + n.val) / 4 % 4) + i.val = 512 * m.val + i.val; omega)
  have e2 : (⟨512 * ((16 * b.val + 4 * m.val + n.val) % 4) + j.val, by have := j.isLt; omega⟩ : Fin 2048) = ⟨512 * n.val + j.val, by have := j.isLt; omega⟩ :=
    Fin.ext (by show 512 * ((16 * b.val + 4 * m.val + n.val) % 4) + j.val = 512 * n.val + j.val; omega)
  exact congr (congr (congrArg (pairTerm sq tq ss ts) e0) e1) e2

/-- The 64 tile sums add up to the specification's total. -/
theorem sum_tiles (sq tq : Fin 4 → Fin 2048 → Fin 4096 → EReal) (ss ts : Fin 4 → Fin 2048 → EReal) :
    ∑ t ∈ Finset.range 64, tileSum sq tq ss ts t = Cert.Spec.total sq tq ss ts := by
  rw [sum_points]
  show _ = ∑ b : Fin 4, ∑ I : Fin 2048, ∑ J : Fin 2048, pairTerm sq tq ss ts b I J
  refine Finset.sum_congr rfl fun b _ => ?_
  rw [sum_rows (fun I => ∑ J : Fin 2048, pairTerm sq tq ss ts b I J)]
  refine Finset.sum_congr rfl fun m _ => ?_
  refine (Finset.sum_congr rfl fun n _ => tileSum_point sq tq ss ts b m n).trans ?_
  rw [Finset.sum_comm]
  refine Finset.sum_congr rfl fun i _ => ?_
  exact (sum_rows (fun J => pairTerm sq tq ss ts b _ J)).symm

/-! ## The output array after the region -/

section Final

variable (V : (c : Dev nD) → (b : Ref sig .tc) → Buf (Elt Ideal) ((c : Thread nD τ).loc b)) (c : Dev nD)

/-- After the last point the output buffer holds the total. -/
theorem out_last (t : Fin cfg2.N) (h63 : t.val = 63) :
    (outsAt2 V c t.val t.isLt).1 (ix2 (0 : Fin 1) (0 : Fin 1)) = Cert.Spec.total (sqOf V c) (tqOf V c) (ssOf V c) (tsOf V c) := by
  have h0 : ¬t.val = 0 := by omega
  have hp : t.val - 1 < cfg2.N := Nat.lt_of_le_of_lt (Nat.sub_le _ _) t.isLt
  rw [outsAt2_C V c t h0 h63]
  dsimp only
  refine (congrFun (out2_C_4_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) _ _
      (sBlk V c t) (ssBlk V c t) (tBlk V c t) (tsBlk V c t) (outsAt2 V c (t.val - 1) hp).2) (ix2 (0 : Fin 1) (0 : Fin 1))).trans ?_
  refine (step_apply V c t (outsAt2 V c (t.val - 1) hp).2).trans ?_
  refine (congrArg (fun z => z + tileSum (sqOf V c) (tqOf V c) (ssOf V c) (tsOf V c) t.val) (scratch_eq V c (t.val - 1) hp)).trans ?_
  rw [← sum_tiles, show t.val - 1 + 1 = t.val from by omega, h63]
  exact (Finset.sum_range_succ _ 63).symm

/-- A one-element block whose entry is T is the block, at any point, of the one-element array holding T. -/
theorem cut_const (t : Fin cfg2.N) (X : Vec Ideal S1x1 .f32) (T : EReal) (hX : X (ix2 (0 : Fin 1) (0 : Fin 1)) = T) :
    (cfg2.win 4).cut (grid2.coords t) X = ((cfg2.win 4).blk t).view.read (Elt Ideal) (fun _ : S1x1.Idx => T) := by
  funext y
  rw [View.read_apply]
  show X y = T
  have hy : y = ix2 (0 : Fin 1) (0 : Fin 1) := funext fun a => match a with
    | ⟨0, _⟩ => Fin.ext (Nat.lt_one_iff.mp (y ⟨0, _⟩).isLt)
    | ⟨1, _⟩ => Fin.ext (Nat.lt_one_iff.mp (y ⟨1, _⟩).isLt)
  rw [hy]
  exact hX

/-- The last point. -/
abbrev tLast : Fin cfg2.N := ⟨63, by rw [show cfg2.N = 64 from N_2]; decide⟩

/-- The one write-back, at the last point, writes the total. -/
theorem flushed2_4 (t : Fin cfg2.N) (hf : (cfg2.win 4).flush t = true) :
    (dat2 (F := Ideal) V c).flushed 4 t
      = ((cfg2.win 4).blk t).view.read (Elt Ideal) (fun _ : S1x1.Idx => Cert.Spec.total (sqOf V c) (tqOf V c) (ssOf V c) (tsOf V c)) := by
  have hN : cfg2.N = 64 := N_2
  have h63 : t.val = 63 := by have := (flush2_4 t).mp hf; have := t.isLt; omega
  show (cfg2.win 4).cut (grid2.coords t) ((dat2 V c).after 4 t) = _
  rw [after2_4]
  exact cut_const t (outsAt2 V c t.val t.isLt).1 _ (out_last V c t h63)

/-- The output array ends holding the total of the four arrays the region found. -/
theorem sim_final : (dat2 (F := Ideal) V c).arrAt 4 cfg2.N
      = (fun _ : S1x1.Idx => Cert.Spec.total (fun b i d => V c main_v5 (ix3 b i d)) (fun b j d => V c main_v7 (ix3 b j d))
            (fun b i => V c main_v6 (ix3 b i (0 : Fin 1))) (fun b j => V c main_v9 (ix3 b (0 : Fin 1) j))) :=
  (dat2 (F := Ideal) V c).arrAt_eq_of_cover 4 _ (flushed2_4 V c) fun i =>
    ⟨tLast, (flush2_4 tLast).mpr rfl, by
      show i ∈ ((View.whole main_v10).slice (win2_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win2_4.index tLast 0 * win2_4.size 0 ≤ (i 0 : Nat) ∧ (i 0 : Nat) < win2_4.index tLast 0 * win2_4.size 0 + win2_4.xsize (grid2.coords tLast) 0
                  rw [show win2_4.index tLast 0 * win2_4.size 0 = 0 from by decide +kernel, show win2_4.xsize (grid2.coords tLast) 0 = 1 from by decide +kernel]; omega
      | ⟨1, _⟩ => show win2_4.index tLast 1 * win2_4.size 1 ≤ (i 1 : Nat) ∧ (i 1 : Nat) < win2_4.index tLast 1 * win2_4.size 1 + win2_4.xsize (grid2.coords tLast) 1
                  rw [show win2_4.index tLast 1 * win2_4.size 1 = 0 from by decide +kernel, show win2_4.xsize (grid2.coords tLast) 1 = 1 from by decide +kernel]; omega⟩

end Final

end Cert.KernelIdeal.Hand.Sim

end
-- ==== Proof.KernelIdeal.KernelValue.lean ====
/-
  The kernel program's result, over the extended reals, is the specification's loss of the six argument arrays, given
  what the three regions compute. The first region leaves, for every row of the student array laid out as 8192 rows,
  the projected row's quantised values and its scale; the second the same for the teacher rows; the third the sum of
  all dequantised similarities of the arrays it finds. Between them the host only re-lays numbers: row (b, i) of a
  [4, 2048, ·] array is row b·2048 + i of the [8192, ·] one, a column of scales is turned into a row, a change of float
  format is the identity. So the third region's four arrays are, row by row, the specification's quantised rows and
  scales of the arguments, its sum is the specification's total, and the last stretch negates it and divides by 2^24;
  since 2^24 is not zero the sign passes through the division.
-/
import proofs.«178535_j21251498181020_1_alg».proof.Proof.KernelIdeal.Run
import proofs.«178535_j21251498181020_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

namespace Glue

/-! ## Layout: rows of a [4, 2048, ·] array as rows of an [8192, ·] array -/

/-- Row (b, i) of a [4, 2048, ·] array is row b·2048 + i of the same numbers laid out as [8192, ·]. -/
abbrev row (b : Fin 4) (i : Fin 2048) : Fin 8192 := ⟨b.val * 2048 + i.val, by omega⟩

/-- An [8192, C] array cast to [4, 2048, C] reads, at (b, i, d), the operand at (b·2048 + i, d). -/
theorem cast_rows_split {α : Type} {C : ℕ} (x : (⟨2, ![8192, C]⟩ : Shape).Idx → α)
    (h : (⟨2, ![8192, C]⟩ : Shape).ShapeCasts ⟨3, ![4, 2048, C]⟩) (b : Fin 4) (i : Fin 2048) (d : Fin C) :
    shapeCast ⟨3, ![4, 2048, C]⟩ x h (ix3 b i d) = x (ix2 (row b i) d) :=
  shapeCast_apply x h _ _ (by
    rw [Shape.rowMajor_val_two, Shape.rowMajor_val_three]; rfl)

/-- A [4, 2048, C] array cast to [8192, C] reads, at (b·2048 + i, d), the operand at (b, i, d). -/
theorem cast_rows_merge {α : Type} {C : ℕ} (x : (⟨3, ![4, 2048, C]⟩ : Shape).Idx → α)
    (h : (⟨3, ![4, 2048, C]⟩ : Shape).ShapeCasts ⟨2, ![8192, C]⟩) (b : Fin 4) (i : Fin 2048) (d : Fin C) :
    shapeCast ⟨2, ![8192, C]⟩ x h (ix2 (row b i) d) = x (ix3 b i d) :=
  shapeCast_apply x h _ _ (by
    rw [Shape.rowMajor_val_two, Shape.rowMajor_val_three]; rfl)

/-- A cast of a constant array is the constant array. -/
theorem shapeCast_const {α : Type} {s t : Shape} (a : α) (h : s.ShapeCasts t) :
    shapeCast t (fun _ : s.Idx => a) h = fun _ => a := rfl

/-! ## The divisor 2^24 is not zero, so the sign passes through the division -/

theorem count_ne_zero : Cert.Spec.count ≠ 0 := by
  simp [Cert.Spec.count, Ideal.ofBits, Ideal.ieee]

theorem div_neg_count (x : EReal) : Ideal.div (-x) Cert.Spec.count = -(Ideal.div x Cert.Spec.count) := by
  unfold Ideal.div
  rw [if_neg count_ne_zero, if_neg count_ne_zero, EReal.neg_mul]

/-! ## The host stretches, buffer by buffer -/

section Host
variable (m : (ℓ : Loc nD τ sig) → Buf (Elt Ideal) ℓ) (ρ : Dev nD → PrngReg) (c : Dev nD)

/-- Before the first region: the student array with its two leading axes merged. -/
theorem W1_v0 : (W1 (F := Ideal) m ρ c (Proc.devRef .tc main_v0) : S8192x2048.Idx → EReal)
    = shapeCast S8192x2048 (m ((c.tc : Thread nD τ).loc main_arg1) : S4x2048x2048.Idx → EReal) shapeCasts_S4x2048x2048_S8192x2048 := by
  show StableHlo.after hostOps0 (W0 (F := Ideal) m ρ c) (Proc.devRef .tc main_v0) = _
  after_results
  rfl

/-- … the teacher array likewise … -/
theorem W1_v1 : (W1 (F := Ideal) m ρ c (Proc.devRef .tc main_v1) : S8192x4096.Idx → EReal)
    = shapeCast S8192x4096 (m ((c.tc : Thread nD τ).loc main_arg0) : S4x2048x4096.Idx → EReal) shapeCasts_S4x2048x4096_S8192x4096 := by
  show StableHlo.after hostOps0 (W0 (F := Ideal) m ρ c) (Proc.devRef .tc main_v1) = _
  after_results
  rfl

/-- … and the projection matrix itself (a change of float format is the identity on extended reals). -/
theorem W1_v2 : (W1 (F := Ideal) m ρ c (Proc.devRef .tc main_v2) : S2048x4096.Idx → EReal)
    = (m ((c.tc : Thread nD τ).loc main_arg2) : S2048x4096.Idx → EReal) := by
  show StableHlo.after hostOps0 (W0 (F := Ideal) m ρ c) (Proc.devRef .tc main_v2) = _
  after_results
  rfl

theorem W1_arg3 : W1 (F := Ideal) m ρ c (Proc.devRef .tc main_arg3) = m ((c.tc : Thread nD τ).loc main_arg3) := by
  show StableHlo.after hostOps0 (W0 (F := Ideal) m ρ c) (Proc.devRef .tc main_arg3) = _
  after_results
theorem W1_arg4 : W1 (F := Ideal) m ρ c (Proc.devRef .tc main_arg4) = m ((c.tc : Thread nD τ).loc main_arg4) := by
  show StableHlo.after hostOps0 (W0 (F := Ideal) m ρ c) (Proc.devRef .tc main_arg4) = _
  after_results
theorem W1_arg5 : W1 (F := Ideal) m ρ c (Proc.devRef .tc main_arg5) = m ((c.tc : Thread nD τ).loc main_arg5) := by
  show StableHlo.after hostOps0 (W0 (F := Ideal) m ρ c) (Proc.devRef .tc main_arg5) = _
  after_results

end Host
end Glue
end Cert.KernelIdeal.Hand

namespace Cert.KernelIdeal.Hand
namespace Glue

open Idealize.ShloMosaic Idealize.ShloMosaic.TcCoe Idealize.SL.Sem Idealize.ShloMosaic.ValueIdx
open Cert.KernelIdeal Cert.KernelIdeal.Gen

section Host2
variable (m : (ℓ : Loc nD τ sig) → Buf (Elt Ideal) ℓ) (ρ : Dev nD → PrngReg) (c : Dev nD)

/-! Between the second and the third region: the four region results with their row axis split again, the teacher's
    scales also turned from a column into a row. -/

theorem W4_v5 : (W4 (F := Ideal) m ρ c (Proc.devRef .tc main_v5) : S4x2048x4096.Idx → EReal)
    = shapeCast S4x2048x4096 (W3 (F := Ideal) m ρ c (Proc.devRef .tc main_v3_0) : S8192x4096.Idx → EReal) shapeCasts_S8192x4096_S4x2048x4096 := by
  show StableHlo.after hostOps2 (W3 (F := Ideal) m ρ c) (Proc.devRef .tc main_v5) = _
  after_results
  rfl
theorem W4_v6 : (W4 (F := Ideal) m ρ c (Proc.devRef .tc main_v6) : S4x2048x1.Idx → EReal)
    = shapeCast S4x2048x1 (W3 (F := Ideal) m ρ c (Proc.devRef .tc main_v3_1) : S8192x1.Idx → EReal) shapeCasts_S8192x1_S4x2048x1 := by
  show StableHlo.after hostOps2 (W3 (F := Ideal) m ρ c) (Proc.devRef .tc main_v6) = _
  after_results
  rfl
theorem W4_v7 : (W4 (F := Ideal) m ρ c (Proc.devRef .tc main_v7) : S4x2048x4096.Idx → EReal)
    = shapeCast S4x2048x4096 (W3 (F := Ideal) m ρ c (Proc.devRef .tc main_v4_0) : S8192x4096.Idx → EReal) shapeCasts_S8192x4096_S4x2048x4096 := by
  show StableHlo.after hostOps2 (W3 (F := Ideal) m ρ c) (Proc.devRef .tc main_v7) = _
  after_results
  rfl
theorem W4_v9 : (W4 (F := Ideal) m ρ c (Proc.devRef .tc main_v9) : S4x1x2048.Idx → EReal)
    = transpose S4x1x2048 [0, 2, 1]
        (shapeCast S4x2048x1 (W3 (F := Ideal) m ρ c (Proc.devRef .tc main_v4_1) : S8192x1.Idx → EReal) shapeCasts_S8192x1_S4x2048x1)
        transposes_S4x2048x1_S4x1x2048_0_2_1 := by
  show StableHlo.after hostOps2 (W3 (F := Ideal) m ρ c) (Proc.devRef .tc main_v9) = _
  after_results
  rfl

/-- After the third region: the one number the region leaves, negated and divided by 2^24. -/
theorem W6_v13 : (W6 (F := Ideal) m ρ c (Proc.devRef .tc main_v13) : S_.Idx → EReal)
    = Host.divf (F := Ideal) (Host.negf (F := Ideal) (shapeCast S_ (W5 (F := Ideal) m ρ c (Proc.devRef .tc main_v10) : S1x1.Idx → EReal) shapeCasts_S1x1_S_))
        (constant (F := Ideal) S_ .f32 0x4B800000#32) := by
  show StableHlo.after hostOps3 (W5 (F := Ideal) m ρ c) (Proc.devRef .tc main_v13) = _
  after_results
  rfl

end Host2
end Glue
end Cert.KernelIdeal.Hand

namespace Cert.KernelIdeal.Hand
namespace Glue

open Idealize.ShloMosaic Idealize.ShloMosaic.TcCoe Idealize.SL.Sem Idealize.ShloMosaic.ValueIdx
open Cert.KernelIdeal Cert.KernelIdeal.Gen

/-- The contents of the core's buffers when a region is entered. -/
abbrev VT := (c : Dev nD) → (b : Ref sig .tc) → Buf (Elt Ideal) ((c : Thread nD τ).loc b)

/-! ## The five region values at an index, with the rows they read named

Each takes the region's value as stated for it and equations naming the rows it reads; nothing of the row functions
(projection, normalisation, scale, quantisation) is opened. -/

section Adapters
variable (V : VT) (c : Dev nD)

theorem student_quant_at
    (h : (dat0 (F := Ideal) V c).arrAt 4 cfg0.N = (fun i : S8192x4096.Idx => Cert.Spec.quantRow (Cert.Spec.projRow (fun k => V c main_v0 (ix2 (i 0) k)) (fun k f' => V c main_v2 (ix2 k f')) (fun f' => V c main_arg3 (ix1 f'))) (fun f' => V c main_arg5 (ix1 f')) (i 1)))
    (r : Fin 8192) (d : Fin 4096) {s : Fin 2048 → EReal} {w : Fin 2048 → Fin 4096 → EReal} {bb sg : Fin 4096 → EReal}
    (hs : (fun k => V c main_v0 (ix2 r k)) = s) (hw : (fun k f' => V c main_v2 (ix2 k f')) = w)
    (hb : (fun f' => V c main_arg3 (ix1 f')) = bb) (hg : (fun f' => V c main_arg5 (ix1 f')) = sg) :
    ((dat0 (F := Ideal) V c).arrAt 4 cfg0.N : S8192x4096.Idx → EReal) (ix2 r d)
      = Cert.Spec.quantRow (Cert.Spec.projRow s w bb) sg d := by
  subst hs hw hb hg
  exact congrFun h (ix2 r d)

theorem student_scale_at
    (h : (dat0 (F := Ideal) V c).arrAt 5 cfg0.N = (fun i : S8192x1.Idx => Cert.Spec.scaleRow (Cert.Spec.projRow (fun k => V c main_v0 (ix2 (i 0) k)) (fun k f' => V c main_v2 (ix2 k f')) (fun f' => V c main_arg3 (ix1 f'))) (fun f' => V c main_arg5 (ix1 f'))))
    (r : Fin 8192) (u : Fin 1) {s : Fin 2048 → EReal} {w : Fin 2048 → Fin 4096 → EReal} {bb sg : Fin 4096 → EReal}
    (hs : (fun k => V c main_v0 (ix2 r k)) = s) (hw : (fun k f' => V c main_v2 (ix2 k f')) = w)
    (hb : (fun f' => V c main_arg3 (ix1 f')) = bb) (hg : (fun f' => V c main_arg5 (ix1 f')) = sg) :
    ((dat0 (F := Ideal) V c).arrAt 5 cfg0.N : S8192x1.Idx → EReal) (ix2 r u)
      = Cert.Spec.scaleRow (Cert.Spec.projRow s w bb) sg := by
  subst hs hw hb hg
  exact congrFun h (ix2 r u)

theorem teacher_quant_at
    (h : (dat1 (F := Ideal) V c).arrAt 2 cfg1.N = (fun i : S8192x4096.Idx => Cert.Spec.quantRow (fun f' => V c main_v1 (ix2 (i 0) f')) (fun f' => V c main_arg4 (ix1 f')) (i 1)))
    (r : Fin 8192) (d : Fin 4096) {t tg : Fin 4096 → EReal}
    (ht : (fun f' => V c main_v1 (ix2 r f')) = t) (hg : (fun f' => V c main_arg4 (ix1 f')) = tg) :
    ((dat1 (F := Ideal) V c).arrAt 2 cfg1.N : S8192x4096.Idx → EReal) (ix2 r d) = Cert.Spec.quantRow t tg d := by
  subst ht hg
  exact congrFun h (ix2 r d)

theorem teacher_scale_at
    (h : (dat1 (F := Ideal) V c).arrAt 3 cfg1.N = (fun i : S8192x1.Idx => Cert.Spec.scaleRow (fun f' => V c main_v1 (ix2 (i 0) f')) (fun f' => V c main_arg4 (ix1 f'))))
    (r : Fin 8192) (u : Fin 1) {t tg : Fin 4096 → EReal}
    (ht : (fun f' => V c main_v1 (ix2 r f')) = t) (hg : (fun f' => V c main_arg4 (ix1 f')) = tg) :
    ((dat1 (F := Ideal) V c).arrAt 3 cfg1.N : S8192x1.Idx → EReal) (ix2 r u) = Cert.Spec.scaleRow t tg := by
  subst ht hg
  exact congrFun h (ix2 r u)

theorem sim_with
    (h : (dat2 (F := Ideal) V c).arrAt 4 cfg2.N = (fun _ : S1x1.Idx => Cert.Spec.total (fun b i d => V c main_v5 (ix3 b i d)) (fun b j d => V c main_v7 (ix3 b j d)) (fun b i => V c main_v6 (ix3 b i (0 : Fin 1))) (fun b j => V c main_v9 (ix3 b (0 : Fin 1) j))))
    {sq tq : Fin 4 → Fin 2048 → Fin 4096 → EReal} {ss ts : Fin 4 → Fin 2048 → EReal}
    (hsq : (fun b i d => V c main_v5 (ix3 b i d)) = sq) (htq : (fun b j d => V c main_v7 (ix3 b j d)) = tq)
    (hss : (fun b i => V c main_v6 (ix3 b i (0 : Fin 1))) = ss) (hts : (fun b j => V c main_v9 (ix3 b (0 : Fin 1) j)) = ts) :
    ((dat2 (F := Ideal) V c).arrAt 4 cfg2.N : S1x1.Idx → EReal) = fun _ => Cert.Spec.total sq tq ss ts := by
  subst hsq htq hss hts
  exact h

end Adapters
end Glue
end Cert.KernelIdeal.Hand

namespace Cert.KernelIdeal.Hand
namespace Glue

open Idealize.ShloMosaic Idealize.ShloMosaic.TcCoe Idealize.SL.Sem Idealize.ShloMosaic.ValueIdx
open Cert.KernelIdeal Cert.KernelIdeal.Gen

section Chain
variable (m : (ℓ : Loc nD τ sig) → Buf (Elt Ideal) ℓ) (ρ : Dev nD → PrngReg) (c : Dev nD)

/-! ## The six argument arrays -/

abbrev aT : S4x2048x4096.Idx → EReal := m ((c.tc : Thread nD τ).loc main_arg0)
abbrev aS : S4x2048x2048.Idx → EReal := m ((c.tc : Thread nD τ).loc main_arg1)
abbrev aW : S2048x4096.Idx → EReal := m ((c.tc : Thread nD τ).loc main_arg2)
abbrev aB : S4096.Idx → EReal := m ((c.tc : Thread nD τ).loc main_arg3)
abbrev aGt : S4096.Idx → EReal := m ((c.tc : Thread nD τ).loc main_arg4)
abbrev aGs : S4096.Idx → EReal := m ((c.tc : Thread nD τ).loc main_arg5)

/-- Student row (b, i) projected to the teacher's width. -/
abbrev sRow (b : Fin 4) (i : Fin 2048) : Fin 4096 → EReal :=
  Cert.Spec.projRow (fun k => aS m c (ix3 b i k)) (fun k f => aW m c (ix2 k f)) (fun f => aB m c (ix1 f))
/-- Teacher row (b, j). -/
abbrev tRow (b : Fin 4) (j : Fin 2048) : Fin 4096 → EReal := fun f => aT m c (ix3 b j f)

/-! ## What the first two regions find, row by row -/

theorem in_student_row (b : Fin 4) (i : Fin 2048) :
    (fun k => V1 (F := Ideal) m ρ c main_v0 (ix2 (row b i) k)) = fun k => aS m c (ix3 b i k) := by
  funext k
  show (W1 (F := Ideal) m ρ c (Proc.devRef .tc main_v0) : S8192x2048.Idx → EReal) (ix2 (row b i) k) = _
  rw [W1_v0, cast_rows_merge]
theorem in_weights : (fun k f' => V1 (F := Ideal) m ρ c main_v2 (ix2 k f')) = fun k f => aW m c (ix2 k f) := by
  funext k f
  show (W1 (F := Ideal) m ρ c (Proc.devRef .tc main_v2) : S2048x4096.Idx → EReal) (ix2 k f) = _
  rw [W1_v2]
theorem in_bias : (fun f' => V1 (F := Ideal) m ρ c main_arg3 (ix1 f')) = fun f => aB m c (ix1 f) := by
  funext f
  show (W1 (F := Ideal) m ρ c (Proc.devRef .tc main_arg3) : S4096.Idx → EReal) (ix1 f) = _
  rw [W1_arg3]
theorem in_student_gain : (fun f' => V1 (F := Ideal) m ρ c main_arg5 (ix1 f')) = fun f => aGs m c (ix1 f) := by
  funext f
  show (W1 (F := Ideal) m ρ c (Proc.devRef .tc main_arg5) : S4096.Idx → EReal) (ix1 f) = _
  rw [W1_arg5]

theorem W2_v1 : (W2 (F := Ideal) m ρ c (Proc.devRef .tc main_v1) : S8192x4096.Idx → EReal)
    = shapeCast S8192x4096 (aT m c) shapeCasts_S4x2048x4096_S8192x4096 :=
  (W2_of_ne (F := Ideal) m ρ c main_v1 (by decide)).trans (W1_v1 m ρ c)
theorem W2_arg4 : W2 (F := Ideal) m ρ c (Proc.devRef .tc main_arg4) = m ((c.tc : Thread nD τ).loc main_arg4) :=
  (W2_of_ne (F := Ideal) m ρ c main_arg4 (by decide)).trans (W1_arg4 m ρ c)

theorem in_teacher_row (b : Fin 4) (j : Fin 2048) :
    (fun f' => V2 (F := Ideal) m ρ c main_v1 (ix2 (row b j) f')) = tRow m c b j := by
  funext f
  show (W2 (F := Ideal) m ρ c (Proc.devRef .tc main_v1) : S8192x4096.Idx → EReal) (ix2 (row b j) f) = _
  rw [W2_v1, cast_rows_merge]
theorem in_teacher_gain : (fun f' => V2 (F := Ideal) m ρ c main_arg4 (ix1 f')) = fun f => aGt m c (ix1 f) := by
  funext f
  show (W2 (F := Ideal) m ρ c (Proc.devRef .tc main_arg4) : S4096.Idx → EReal) (ix1 f) = _
  rw [W2_arg4]

/-! ## What the first two regions leave, as the second stretch finds it -/

theorem W3_v3_0 : (W3 (F := Ideal) m ρ c (Proc.devRef .tc main_v3_0) : S8192x4096.Idx → EReal)
    = (dat0 (F := Ideal) (V1 m ρ) c).arrAt 4 cfg0.N :=
  (W3_of_ne (F := Ideal) m ρ c main_v3_0 (by decide)).trans (W2_arr m ρ c 4)
theorem W3_v3_1 : (W3 (F := Ideal) m ρ c (Proc.devRef .tc main_v3_1) : S8192x1.Idx → EReal)
    = (dat0 (F := Ideal) (V1 m ρ) c).arrAt 5 cfg0.N :=
  (W3_of_ne (F := Ideal) m ρ c main_v3_1 (by decide)).trans (W2_arr m ρ c 5)
theorem W3_v4_0 : (W3 (F := Ideal) m ρ c (Proc.devRef .tc main_v4_0) : S8192x4096.Idx → EReal)
    = (dat1 (F := Ideal) (V2 m ρ) c).arrAt 2 cfg1.N := W3_arr m ρ c 2
theorem W3_v4_1 : (W3 (F := Ideal) m ρ c (Proc.devRef .tc main_v4_1) : S8192x1.Idx → EReal)
    = (dat1 (F := Ideal) (V2 m ρ) c).arrAt 3 cfg1.N := W3_arr m ρ c 3
theorem W5_v10 : (W5 (F := Ideal) m ρ c (Proc.devRef .tc main_v10) : S1x1.Idx → EReal)
    = (dat2 (F := Ideal) (V4 m ρ) c).arrAt 4 cfg2.N := W5_arr m ρ c 4

end Chain
end Glue
end Cert.KernelIdeal.Hand

namespace Cert.KernelIdeal.Hand

open Idealize.ShloMosaic Idealize.ShloMosaic.TcCoe Idealize.SL.Sem Idealize.ShloMosaic.ValueIdx
open Cert.KernelIdeal Cert.KernelIdeal.Gen

/-- The kernel program's result buffer after the run is the loss of the argument arrays as launched, given the five
    region values. -/
theorem result_value
    (hsq : ∀ (V : Glue.VT) (c : Dev nD), (dat0 (F := Ideal) V c).arrAt 4 cfg0.N = (fun i : S8192x4096.Idx => Cert.Spec.quantRow (Cert.Spec.projRow (fun k => V c main_v0 (ix2 (i 0) k)) (fun k f' => V c main_v2 (ix2 k f')) (fun f' => V c main_arg3 (ix1 f'))) (fun f' => V c main_arg5 (ix1 f')) (i 1)))
    (hss : ∀ (V : Glue.VT) (c : Dev nD), (dat0 (F := Ideal) V c).arrAt 5 cfg0.N = (fun i : S8192x1.Idx => Cert.Spec.scaleRow (Cert.Spec.projRow (fun k => V c main_v0 (ix2 (i 0) k)) (fun k f' => V c main_v2 (ix2 k f')) (fun f' => V c main_arg3 (ix1 f'))) (fun f' => V c main_arg5 (ix1 f'))))
    (htq : ∀ (V : Glue.VT) (c : Dev nD), (dat1 (F := Ideal) V c).arrAt 2 cfg1.N = (fun i : S8192x4096.Idx => Cert.Spec.quantRow (fun f' => V c main_v1 (ix2 (i 0) f')) (fun f' => V c main_arg4 (ix1 f')) (i 1)))
    (hts : ∀ (V : Glue.VT) (c : Dev nD), (dat1 (F := Ideal) V c).arrAt 3 cfg1.N = (fun i : S8192x1.Idx => Cert.Spec.scaleRow (fun f' => V c main_v1 (ix2 (i 0) f')) (fun f' => V c main_arg4 (ix1 f'))))
    (hsim : ∀ (V : Glue.VT) (c : Dev nD), (dat2 (F := Ideal) V c).arrAt 4 cfg2.N = (fun _ : S1x1.Idx => Cert.Spec.total (fun b i d => V c main_v5 (ix3 b i d)) (fun b j d => V c main_v7 (ix3 b j d)) (fun b i => V c main_v6 (ix3 b i (0 : Fin 1))) (fun b j => V c main_v9 (ix3 b (0 : Fin 1) j))))
    (m : (ℓ : Loc nD τ sig) → Buf (Elt Ideal) ℓ) (ρ : Dev nD → PrngReg) (c : Dev nD) :
    W6 (F := Ideal) m ρ c (Proc.devRef .tc main_v13)
      = fun _ => Cert.Spec.loss
          (fun b i f => (m ((c.tc : Thread nD τ).loc main_arg0) : S4x2048x4096.Idx → EReal) (ix3 b i f))
          (fun b i k => (m ((c.tc : Thread nD τ).loc main_arg1) : S4x2048x2048.Idx → EReal) (ix3 b i k))
          (fun k f => (m ((c.tc : Thread nD τ).loc main_arg2) : S2048x4096.Idx → EReal) (ix2 k f))
          (fun f => (m ((c.tc : Thread nD τ).loc main_arg3) : S4096.Idx → EReal) (ix1 f))
          (fun f => (m ((c.tc : Thread nD τ).loc main_arg4) : S4096.Idx → EReal) (ix1 f))
          (fun f => (m ((c.tc : Thread nD τ).loc main_arg5) : S4096.Idx → EReal) (ix1 f)) := by
  -- the third region's four arrays, row by row
  have eSQ : (fun b i d => V4 (F := Ideal) m ρ c main_v5 (ix3 b i d))
      = fun b i => Cert.Spec.quantRow (Glue.sRow m c b i) (fun f => Glue.aGs m c (ix1 f)) := by
    funext b i d
    show (W4 (F := Ideal) m ρ c (Proc.devRef .tc main_v5) : S4x2048x4096.Idx → EReal) (ix3 b i d) = _
    rw [Glue.W4_v5, Glue.cast_rows_split, Glue.W3_v3_0]
    exact Glue.student_quant_at (V1 m ρ) c (hsq (V1 m ρ) c) (Glue.row b i) d (Glue.in_student_row m ρ c b i)
      (Glue.in_weights m ρ c) (Glue.in_bias m ρ c) (Glue.in_student_gain m ρ c)
  have eTQ : (fun b j d => V4 (F := Ideal) m ρ c main_v7 (ix3 b j d))
      = fun b j => Cert.Spec.quantRow (Glue.tRow m c b j) (fun f => Glue.aGt m c (ix1 f)) := by
    funext b j d
    show (W4 (F := Ideal) m ρ c (Proc.devRef .tc main_v7) : S4x2048x4096.Idx → EReal) (ix3 b j d) = _
    rw [Glue.W4_v7, Glue.cast_rows_split, Glue.W3_v4_0]
    exact Glue.teacher_quant_at (V2 m ρ) c (htq (V2 m ρ) c) (Glue.row b j) d (Glue.in_teacher_row m ρ c b j)
      (Glue.in_teacher_gain m ρ c)
  have eSS : (fun b i => V4 (F := Ideal) m ρ c main_v6 (ix3 b i (0 : Fin 1)))
      = fun b i => Cert.Spec.scaleRow (Glue.sRow m c b i) (fun f => Glue.aGs m c (ix1 f)) := by
    funext b i
    show (W4 (F := Ideal) m ρ c (Proc.devRef .tc main_v6) : S4x2048x1.Idx → EReal) (ix3 b i (0 : Fin 1)) = _
    rw [Glue.W4_v6, Glue.cast_rows_split, Glue.W3_v3_1]
    exact Glue.student_scale_at (V1 m ρ) c (hss (V1 m ρ) c) (Glue.row b i) (0 : Fin 1) (Glue.in_student_row m ρ c b i)
      (Glue.in_weights m ρ c) (Glue.in_bias m ρ c) (Glue.in_student_gain m ρ c)
  have eTS : (fun b j => V4 (F := Ideal) m ρ c main_v9 (ix3 b (0 : Fin 1) j))
      = fun b j => Cert.Spec.scaleRow (Glue.tRow m c b j) (fun f => Glue.aGt m c (ix1 f)) := by
    funext b j
    show (W4 (F := Ideal) m ρ c (Proc.devRef .tc main_v9) : S4x1x2048.Idx → EReal) (ix3 b (0 : Fin 1) j) = _
    rw [Glue.W4_v9, transpose_ix3_021_apply, Glue.cast_rows_split, Glue.W3_v4_1]
    exact Glue.teacher_scale_at (V2 m ρ) c (hts (V2 m ρ) c) (Glue.row b j) (0 : Fin 1) (Glue.in_teacher_row m ρ c b j)
      (Glue.in_teacher_gain m ρ c)
  -- so its sum is the specification's total, and the last stretch makes the loss of it
  have eSim := Glue.sim_with (V4 m ρ) c (hsim (V4 m ρ) c) eSQ eTQ eSS eTS
  show (W6 (F := Ideal) m ρ c (Proc.devRef .tc main_v13) : S_.Idx → EReal) = _
  rw [Glue.W6_v13, Glue.W5_v10, eSim, Glue.shapeCast_const]
  funext q
  exact Glue.div_neg_count _

end Cert.KernelIdeal.Hand

end
-- ==== Proof.RefValue.lean ====
/-
  The reference program's result, read over the extended reals, is the specification's loss of the six argument arrays.
  The program is followed stage by stage at an index given by its coordinates: the student projection (a contraction plus
  the bias), the two RMS normalisations (a row's sum of squares over 4096, plus ε, inverse square root, times the gain),
  the two row scales (the fold of max over a row of |·| = max(a, −a), over 448, clamped below by ε), the two quantised
  arrays (normalised value over the row's scale), one similarity entry (the contraction over d of a quantised student
  row against a quantised teacher row of the same batch, times both scales), the sum of all entries as the triple sum
  over batch and row pairs, and last the division by 2^24 and the sign.
-/
import proofs.«178535_j21251498181020_1_alg».proof.Proof.Spec
import proofs.«178535_j21251498181020_1_alg».proof.Proof.Gen.ReferenceIdeal.Read
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx
open Cert.ReferenceIdeal.Read

/-! ## A rank-3 index set is the product of its coordinate ranges -/

/-- A rank-3 index is the triple of its coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over the index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The one coordinate of an axis of extent one. -/
abbrev z1 : Fin 1 := ⟨0, Nat.one_pos⟩

/-! ## The program's index maps at an index given by its coordinates -/

section IndexMaps
variable (b : Fin 4) (i j : Fin 2048) (f d : Fin 4096) (k : Fin 2048)

theorem lidx0 : lidx_main_v0 (ix3 b i f) k = ix3 b i k := by
  funext a; match a with | ⟨0, _⟩ => rfl | ⟨1, _⟩ => rfl | ⟨2, _⟩ => rfl
theorem ridx0 : ridx_main_v0 (ix3 b i f) k = ix2 k f := by
  funext a; match a with | ⟨0, _⟩ => rfl | ⟨1, _⟩ => rfl
theorem idx2 : idx_main_v2 (ix3 b i f) = ix3 z1 z1 f := by
  funext a; match a with | ⟨0, _⟩ => rfl | ⟨1, _⟩ => rfl | ⟨2, _⟩ => rfl
theorem idx1 : idx_main_v1 (ix3 z1 z1 f) = ix1 f := by
  funext a; match a with | ⟨0, _⟩ => rfl
theorem idx15 : idx_main_v15 (ix3 b i f) = ix3 z1 z1 f := by
  funext a; match a with | ⟨0, _⟩ => rfl | ⟨1, _⟩ => rfl | ⟨2, _⟩ => rfl
theorem idx14 : idx_main_v14 (ix3 z1 z1 f) = ix1 f := by
  funext a; match a with | ⟨0, _⟩ => rfl
theorem idx28 : idx_main_v28 (ix3 b i f) = ix3 z1 z1 f := by
  funext a; match a with | ⟨0, _⟩ => rfl | ⟨1, _⟩ => rfl | ⟨2, _⟩ => rfl
theorem idx27 : idx_main_v27 (ix3 z1 z1 f) = ix1 f := by
  funext a; match a with | ⟨0, _⟩ => rfl
theorem idx5 : idx_main_v5 (ix2 b i) d = ix3 b i d := by
  funext a; match a with | ⟨0, _⟩ => rfl | ⟨1, _⟩ => rfl | ⟨2, _⟩ => rfl
theorem idx18 : idx_main_v18 (ix2 b i) d = ix3 b i d := by
  funext a; match a with | ⟨0, _⟩ => rfl | ⟨1, _⟩ => rfl | ⟨2, _⟩ => rfl
theorem idx6 : idx_main_v6 (ix3 b i z1) = ix2 b i := by
  funext a; match a with | ⟨0, _⟩ => rfl | ⟨1, _⟩ => rfl
theorem idx19 : idx_main_v19 (ix3 b i z1) = ix2 b i := by
  funext a; match a with | ⟨0, _⟩ => rfl | ⟨1, _⟩ => rfl
theorem idx32 : idx_main_v32 (ix3 b i z1) = ix2 b i := by
  funext a; match a with | ⟨0, _⟩ => rfl | ⟨1, _⟩ => rfl
theorem idx41 : idx_main_v41 (ix3 b i z1) = ix2 b i := by
  funext a; match a with | ⟨0, _⟩ => rfl | ⟨1, _⟩ => rfl
theorem idx12 : idx_main_v12 (ix3 b i f) = ix3 b i z1 := by
  funext a; match a with | ⟨0, _⟩ => rfl | ⟨1, _⟩ => rfl | ⟨2, _⟩ => rfl
theorem idx25 : idx_main_v25 (ix3 b i f) = ix3 b i z1 := by
  funext a; match a with | ⟨0, _⟩ => rfl | ⟨1, _⟩ => rfl | ⟨2, _⟩ => rfl
theorem idx37 : idx_main_v37 (ix3 b i f) = ix3 b i z1 := by
  funext a; match a with | ⟨0, _⟩ => rfl | ⟨1, _⟩ => rfl | ⟨2, _⟩ => rfl
theorem idx46 : idx_main_v46 (ix3 b i f) = ix3 b i z1 := by
  funext a; match a with | ⟨0, _⟩ => rfl | ⟨1, _⟩ => rfl | ⟨2, _⟩ => rfl
theorem idx49 : idx_main_v49 (ix3 b i j) = ix3 b i z1 := by
  funext a; match a with | ⟨0, _⟩ => rfl | ⟨1, _⟩ => rfl | ⟨2, _⟩ => rfl
theorem idx52 : idx_main_v52 (ix3 b i j) = ix3 b z1 j := by
  funext a; match a with | ⟨0, _⟩ => rfl | ⟨1, _⟩ => rfl | ⟨2, _⟩ => rfl
theorem idx51 : idx_main_v51 (ix3 b z1 j) = ix3 b j z1 := by
  funext a; match a with | ⟨0, _⟩ => rfl | ⟨1, _⟩ => rfl | ⟨2, _⟩ => rfl
theorem lidx48 : lidx_main_v48 (ix3 b i j) d = ix3 b i d := by
  funext a; match a with | ⟨0, _⟩ => rfl | ⟨1, _⟩ => rfl | ⟨2, _⟩ => rfl
theorem ridx48 : ridx_main_v48 (ix3 b i j) d = ix3 b j d := by
  funext a; match a with | ⟨0, _⟩ => rfl | ⟨1, _⟩ => rfl | ⟨2, _⟩ => rfl

/-- The shape fact that names the index a row reduction reads: the row's index with the coordinate inserted. -/
theorem rowRed : S4x2048x4096.Reduces [2] S4x2048 := by decide
theorem lift_eq : rowRed.lift (ix2 b i) d = ix3 b i d := by
  funext a; refine Fin.ext ?_; match a with | ⟨0, _⟩ => rfl | ⟨1, _⟩ => rfl | ⟨2, _⟩ => rfl

end IndexMaps

/-! ## The arguments as functions of coordinates -/

section Stages
variable (x0 : (⟨S4x2048x4096, .f32⟩ : BufTy).Contents (Elt Ideal)) (x1 : (⟨S4x2048x2048, .f32⟩ : BufTy).Contents (Elt Ideal))
  (x2 : (⟨S2048x4096, .f32⟩ : BufTy).Contents (Elt Ideal)) (x3 x4 x5 : (⟨S4096, .f32⟩ : BufTy).Contents (Elt Ideal))
  (b : Fin 4) (i j : Fin 2048) (f d : Fin 4096)

/-- Teacher row (b, i). -/
abbrev tRow : Fin 4096 → EReal := fun f => x0 (ix3 b i f)
/-- A gain or bias vector by its coordinate. -/
abbrev vec (x : (⟨S4096, .f32⟩ : BufTy).Contents (Elt Ideal)) : Fin 4096 → EReal := fun f => x (ix1 f)
/-- Student row (b, i), projected to the teacher's width. -/
abbrev sRow : Fin 4096 → EReal :=
  Spec.projRow (fun k => x1 (ix3 b i k)) (fun k f => x2 (ix2 k f)) (vec x3)

/-! ## The teacher's side -/

/-- A teacher row's sum of squares. -/
theorem t_sumsq : val_main_v5 (F := Ideal) x0 (ix2 b i) = ∑ k : Fin 4096, tRow x0 b i k * tRow x0 b i k := by
  rw [val_main_v5_apply, val_main_cst_apply]
  simp only [val_main_v4_apply, idx5, Ideal.mulf_def, Ideal.ofBits_def, Ideal.ofBits_zero_f32, zero_add]

/-- A teacher row's inverse root mean square. -/
theorem t_rms : val_main_v11 (F := Ideal) x0 (ix3 b i z1)
    = Ideal.rsqrt (Ideal.div (∑ k : Fin 4096, tRow x0 b i k * tRow x0 b i k) Spec.rowLen + Spec.eps) := by
  rw [val_main_v11_apply, val_main_v10_apply, val_main_v8_apply, val_main_v6_apply, idx6, t_sumsq, val_main_v7_apply,
    val_main_cst_0_apply, val_main_v9_apply, val_main_cst_1_apply]
  rfl

/-- The teacher's normalised, gained values. -/
theorem t_norm : val_main_v16 (F := Ideal) x0 x4 (ix3 b i f) = Spec.normRow (tRow x0 b i) (vec x4) f := by
  rw [val_main_v16_apply, val_main_v13_apply, val_main_v12_apply, idx12, t_rms, val_main_v15_apply, idx15,
    val_main_v14_apply, idx14]
  rfl

/-- A teacher row's largest normalised magnitude. -/
theorem t_rowmax : val_main_v31 (F := Ideal) x0 x4 (ix2 b i)
    = (Finset.univ : Finset (Fin 4096)).fold max Spec.negInf
        (fun f => max (Spec.normRow (tRow x0 b i) (vec x4) f) (-(Spec.normRow (tRow x0 b i) (vec x4) f))) := by
  unfold val_main_v31
  refine (Host.reduce_eq_fold_single (FloatOps.maximumf (F := Ideal) (φ := .f32)) (val_main_v30 (F := Ideal) x0 x4)
    (val_main_cst_5 (F := Ideal)) reducesTo_S4x2048x4096_S4x2048_d2 rowRed h_S_ (ix2 b i)).trans ?_
  rw [val_main_cst_5_apply]
  refine Finset.fold_congr fun (k : Fin 4096) _ => ?_
  show val_main_v30 (F := Ideal) x0 x4 (rowRed.lift (ix2 b i) k) = _
  rw [lift_eq, val_main_v30_apply, t_norm]
  rfl

/-- A teacher row's scale. -/
theorem t_scale : val_main_v36 (F := Ideal) x0 x4 (ix3 b i z1) = Spec.scaleRow (tRow x0 b i) (vec x4) := by
  rw [val_main_v36_apply, val_main_v34_apply, val_main_v32_apply, idx32, t_rowmax, val_main_v33_apply,
    val_main_cst_6_apply, val_main_v35_apply, val_main_cst_7_apply]
  rfl

/-- The teacher's quantised values. -/
theorem t_quant : val_main_v38 (F := Ideal) x0 x4 (ix3 b i f) = Spec.quantRow (tRow x0 b i) (vec x4) f := by
  rw [val_main_v38_apply, t_norm, val_main_v37_apply, idx37, t_scale]
  rfl

/-! ## The student's side -/

/-- The student projection: the contraction with the weights plus the bias. -/
theorem s_proj : val_main_v3 (F := Ideal) x1 x2 x3 (ix3 b i f) = sRow x1 x2 x3 b i f := by
  rw [val_main_v3_apply, val_main_v0_apply, val_main_v2_apply, idx2, val_main_v1_apply, idx1]
  simp only [lidx0, ridx0]
  rfl

/-- A projected student row's sum of squares. -/
theorem s_sumsq : val_main_v18 (F := Ideal) x1 x2 x3 (ix2 b i)
    = ∑ k : Fin 4096, sRow x1 x2 x3 b i k * sRow x1 x2 x3 b i k := by
  rw [val_main_v18_apply, val_main_cst_2_apply]
  simp only [val_main_v17_apply, idx18, s_proj, Ideal.mulf_def, Ideal.ofBits_def, Ideal.ofBits_zero_f32, zero_add]

/-- A projected student row's inverse root mean square. -/
theorem s_rms : val_main_v24 (F := Ideal) x1 x2 x3 (ix3 b i z1)
    = Ideal.rsqrt (Ideal.div (∑ k : Fin 4096, sRow x1 x2 x3 b i k * sRow x1 x2 x3 b i k) Spec.rowLen + Spec.eps) := by
  rw [val_main_v24_apply, val_main_v23_apply, val_main_v21_apply, val_main_v19_apply, idx19, s_sumsq, val_main_v20_apply,
    val_main_cst_3_apply, val_main_v22_apply, val_main_cst_4_apply]
  rfl

/-- The student's normalised, gained values. -/
theorem s_norm : val_main_v29 (F := Ideal) x1 x2 x3 x5 (ix3 b i f) = Spec.normRow (sRow x1 x2 x3 b i) (vec x5) f := by
  rw [val_main_v29_apply, val_main_v26_apply, s_proj, val_main_v25_apply, idx25, s_rms, val_main_v28_apply, idx28,
    val_main_v27_apply, idx27]
  rfl

/-- A student row's largest normalised magnitude. -/
theorem s_rowmax : val_main_v40 (F := Ideal) x1 x2 x3 x5 (ix2 b i)
    = (Finset.univ : Finset (Fin 4096)).fold max Spec.negInf
        (fun f => max (Spec.normRow (sRow x1 x2 x3 b i) (vec x5) f) (-(Spec.normRow (sRow x1 x2 x3 b i) (vec x5) f))) := by
  unfold val_main_v40
  refine (Host.reduce_eq_fold_single (FloatOps.maximumf (F := Ideal) (φ := .f32)) (val_main_v39 (F := Ideal) x1 x2 x3 x5)
    (val_main_cst_8 (F := Ideal)) reducesTo_S4x2048x4096_S4x2048_d2 rowRed h_S_ (ix2 b i)).trans ?_
  rw [val_main_cst_8_apply]
  refine Finset.fold_congr fun (k : Fin 4096) _ => ?_
  show val_main_v39 (F := Ideal) x1 x2 x3 x5 (rowRed.lift (ix2 b i) k) = _
  rw [lift_eq, val_main_v39_apply, s_norm]
  rfl

/-- A student row's scale. -/
theorem s_scale : val_main_v45 (F := Ideal) x1 x2 x3 x5 (ix3 b i z1) = Spec.scaleRow (sRow x1 x2 x3 b i) (vec x5) := by
  rw [val_main_v45_apply, val_main_v43_apply, val_main_v41_apply, idx41, s_rowmax, val_main_v42_apply,
    val_main_cst_9_apply, val_main_v44_apply, val_main_cst_10_apply]
  rfl

/-- The student's quantised values. -/
theorem s_quant : val_main_v47 (F := Ideal) x1 x2 x3 x5 (ix3 b i f) = Spec.quantRow (sRow x1 x2 x3 b i) (vec x5) f := by
  rw [val_main_v47_apply, s_norm, val_main_v46_apply, idx46, s_scale]
  rfl

/-! ## One similarity entry, their sum, and the loss -/

/-- The dequantised similarity of student row (b, i) and teacher row (b, j). -/
theorem entry : val_main_v53 (F := Ideal) x0 x1 x2 x3 x4 x5 (ix3 b i j)
    = (∑ d : Fin 4096, Spec.quantRow (sRow x1 x2 x3 b i) (vec x5) d * Spec.quantRow (tRow x0 b j) (vec x4) d)
        * Spec.scaleRow (sRow x1 x2 x3 b i) (vec x5) * Spec.scaleRow (tRow x0 b j) (vec x4) := by
  rw [val_main_v53_apply, val_main_v50_apply, val_main_v48_apply, val_main_v49_apply, idx49, s_scale, val_main_v52_apply,
    idx52, val_main_v51_apply, idx51, t_scale]
  simp only [lidx48, ridx48, s_quant, t_quant]
  rfl

/-- The sum of all entries is the specification's triple sum. -/
theorem sum_all (q : S_.Idx) : val_main_v54 (F := Ideal) x0 x1 x2 x3 x4 x5 q
    = Spec.total (fun b i => Spec.quantRow (sRow x1 x2 x3 b i) (vec x5)) (fun b j => Spec.quantRow (tRow x0 b j) (vec x4))
        (fun b i => Spec.scaleRow (sRow x1 x2 x3 b i) (vec x5)) (fun b j => Spec.scaleRow (tRow x0 b j) (vec x4)) := by
  rw [val_main_v54_apply, val_main_cst_11_apply, sum_idx3]
  simp only [entry, Ideal.ofBits_def, Ideal.ofBits_zero_f32, zero_add]
  rfl

/-- The reference's last stage is the loss of the six arrays. -/
theorem stage_eq : val_main_v56 (F := Ideal) x0 x1 x2 x3 x4 x5
    = fun _ => Spec.loss (fun b i f => x0 (ix3 b i f)) (fun b i k => x1 (ix3 b i k)) (fun k f => x2 (ix2 k f))
        (fun f => x3 (ix1 f)) (fun f => x4 (ix1 f)) (fun f => x5 (ix1 f)) := by
  funext q
  rw [val_main_v56_apply, val_main_v55_apply, sum_all, val_main_cst_12_apply]
  rfl

end Stages

/-- The reference program's result is the loss of the argument arrays as the run finds them. -/
theorem result_eq (m : (ℓ : Loc nD τ sig) → Buf (Elt Ideal) ℓ) (c : Dev nD) :
    Cert.ReferenceIdeal.Value.res_out0 (F := Ideal) m c
      = fun _ => Cert.Spec.loss
          (fun b i f => (m ((c.tc : Thread nD τ).loc main_arg0) : S4x2048x4096.Idx → EReal) (ix3 b i f))
          (fun b i k => (m ((c.tc : Thread nD τ).loc main_arg1) : S4x2048x2048.Idx → EReal) (ix3 b i k))
          (fun k f => (m ((c.tc : Thread nD τ).loc main_arg2) : S2048x4096.Idx → EReal) (ix2 k f))
          (fun f => (m ((c.tc : Thread nD τ).loc main_arg3) : S4096.Idx → EReal) (ix1 f))
          (fun f => (m ((c.tc : Thread nD τ).loc main_arg4) : S4096.Idx → EReal) (ix1 f))
          (fun f => (m ((c.tc : Thread nD τ).loc main_arg5) : S4096.Idx → EReal) (ix1 f)) :=
  (Read.val_main_v56_eq (F := Ideal) m c).trans (stage_eq _ _ _ _ _ _)

end Cert.ReferenceIdeal.RefValue

end
-- ==== Proof.lean ====
/-
  The certificate of the distillation-loss kernel against its reference.
  Both programs compute minus the mean, over the batch and all pairs of rows, of the dequantised similarity of a
  quantised student row with a quantised teacher row: each row is RMS-normalised with its gain, its scale is its
  largest magnitude over 448 (at least ε), its quantised values are the normalised ones over the scale; the student
  rows are first projected. The kernel does this in three regions — the student rows block by block, the teacher rows
  block by block, and the similarity total accumulated tile by tile in a one-element scratch — around a few reshapes;
  the reference does it with whole-array operations. At the ideal instance a change of float format is the identity
  and sums of extended reals may be regrouped freely, so the two results are the same function of the six arrays
  (Spec.loss): the reference by reading its operations one at a time, the kernel by reading what each region's
  write-backs leave and the host operations between them. The only algebra beyond regrouping sums is that negating
  before or after dividing by the (non-zero) count is the same.
  Frames: the kernel program's run is three host stretches and three regions in order, every buffer named at each
  boundary, so the arguments — which no item writes — end as launched; the reference's frame is its run with the result
  dropped. Nothing was rewritten by the idealization, so there is nothing to preserve.
-/
import proofs.«178535_j21251498181020_1_alg».proof.Defs
import proofs.«178535_j21251498181020_1_alg».proof.Proof.Gen.Kernel
import proofs.«178535_j21251498181020_1_alg».proof.Proof.Gen.KernelIdeal
import proofs.«178535_j21251498181020_1_alg».proof.Proof.Gen.ReferenceIdeal
import proofs.«178535_j21251498181020_1_alg».proof.Proof.Gen.ReferenceIdeal.Run
import proofs.«178535_j21251498181020_1_alg».proof.Proof.Gen.ReferenceIdeal.Read
import proofs.«178535_j21251498181020_1_alg».proof.Proof.Gen.Pre_finite_inputs
import proofs.«178535_j21251498181020_1_alg».proof.Proof.Kernel.Run
import proofs.«178535_j21251498181020_1_alg».proof.Proof.KernelIdeal.Run
import proofs.«178535_j21251498181020_1_alg».proof.Proof.KernelIdeal.StudentValue
import proofs.«178535_j21251498181020_1_alg».proof.Proof.KernelIdeal.TeacherValue
import proofs.«178535_j21251498181020_1_alg».proof.Proof.KernelIdeal.SimValue
import proofs.«178535_j21251498181020_1_alg».proof.Proof.KernelIdeal.KernelValue
import proofs.«178535_j21251498181020_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote nothing. -/
theorem preserves : Cert.preserves_Kernel_KernelIdeal := trivial

/-- Both programs end with the specification's loss of the (agreeing) argument arrays. -/
theorem algebraic : Cert.algebraic_KernelIdeal_ReferenceIdeal := by
  intro m ρ m' ρ' _ hagree
  refine ⟨fun c => Cert.KernelIdeal.Hand.W6 (F := Ideal) m ρ c (Proc.devRef .tc Cert.KernelIdeal.main_v13), ?_, ?_⟩
  · exact (θ_run Cert.KernelIdeal.defs _ _).mono (fun _ h c =>
      ⟨h c _ (Cert.KernelIdeal.Hand.mem_uc Cert.KernelIdeal.main_v13 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    refine ((Cert.ReferenceIdeal.RefValue.result_eq m' c).trans ?_).trans
      (Cert.KernelIdeal.Hand.result_value Cert.KernelIdeal.Hand.sq_final Cert.KernelIdeal.Hand.ss_final
        Cert.KernelIdeal.Hand.tq_final Cert.KernelIdeal.Hand.ts_final Cert.KernelIdeal.Hand.Sim.sim_final m ρ c).symm
    rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
